-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512x1024 : Shape := ⟨3, ![64, 512, 1024]⟩
abbrev S64x512 : Shape := ⟨2, ![64, 512]⟩
abbrev S1792x7 : Shape := ⟨2, ![1792, 7]⟩
abbrev S7 : Shape := ⟨1, ![7]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S64x512x1024 : S_.BroadcastsInDim S64x512x1024 (![] : Fin 0 → Fin S64x512x1024.rank)
  reducesTo_S64x512x1024_S_d0_1_2 : S64x512x1024.ReducesTo [0, 1, 2] S_
  bcast_S_S1792x7 : S_.BroadcastsInDim S1792x7 (![] : Fin 0 → Fin S1792x7.rank)
  reducesTo_S1792x7_S_d0_1 : S1792x7.ReducesTo [0, 1] S_
  bcast_S_S7 : S_.BroadcastsInDim S7 (![] : Fin 0 → Fin S7.rank)
  reducesTo_S7_S_d0 : S7.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg2 : IVec S64x512 32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_c_6 : IVec S_ 32 := constantI S_ 32 0#32
  let main_v19 : IVec S64x512 32 := broadcastInDim S64x512 ![] bcast_S_S64x512 main_c_6
  let main_v20 : IVec S64x512 1 := cmpi .eq main_arg2 main_v19
  let main_c_7 : IVec S_ 32 := constantI S_ 32 1#32
  let main_v21 : IVec S64x512 32 := broadcastInDim S64x512 ![] bcast_S_S64x512 main_c_7
  let main_v22 : IVec S64x512 1 := cmpi .eq main_arg2 main_v21
  let main_v23 : IVec S64x512 1 := ori main_v20 main_v22
  let main_c_8 : IVec S_ 1 := constantI S_ 1 1#1
  let main_v24 : IVec S_ 1 := (fun x v => Host.reduce IntOp.andi x v reducesTo_S64x512_S_d0_1 h_S_) main_v23 main_c_8
  let main_v25 : IVec S_ 1 := andi main_v18 main_v24
  main_v25

def fn {F : FTy → Type} [FloatOps F] (main_arg0 : FVec F S64x512x768 .f32) (main_arg1 : FVec F S64x512x1024 .f32) (main_arg2 : IVec S64x512 32) (main_arg3 : FVec F S1792x7 .f32) (main_arg4 : FVec F S7 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S1792x7 .f32 := Host.absf main_arg3
  let main_cst_2 : FVec F S_ .f32 := constant S_ .f32 0x7F800000#32
  let main_v10 : FVec F S1792x7 .f32 := broadcastInDim S1792x7 ![] bcast_S_S1792x7 main_cst_2
  let main_v11 : IVec S1792x7 1 := cmpf .olt main_v9 main_v10
  let main_c_3 : IVec S_ 1 := constantI S_ 1 1#1
  let main_v12 : IVec S_ 1 := (fun x v => Host.reduce IntOp.andi x v reducesTo_S1792x7_S_d0_1 h_S_) main_v11 main_c_3
  let main_v13 : IVec S_ 1 := andi main_v8 main_v12
  let main_v14 : FVec F S7 .f32 := Host.absf main_arg4
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg2 main_v13 main_v16
-- ==== Kernel.lean ====
abbrev S64x512x768 : Shape := ⟨3, ![64, 512, 768]⟩
abbrev S64x512x1024 : Shape := ⟨3, ![64, 512, 1024]⟩
abbrev S64x512 : Shape := ⟨2, ![64, 512]⟩
abbrev S1792x7 : Shape := ⟨2, ![1792, 7]⟩
abbrev S7 : Shape := ⟨1, ![7]⟩
abbrev S_ : Shape := ⟨0, ![]⟩
abbrev S64x1x512 : Shape := ⟨3, ![64, 1, 512]⟩
abbrev S768x7 : Shape := ⟨2, ![768, 7]⟩
abbrev S1024x7 : Shape := ⟨2, ![1024, 7]⟩
abbrev S1x7 : Shape := ⟨2, ![1, 7]⟩
abbrev S64x512x7 : Shape := ⟨3, ![64, 512, 7]⟩
abbrev S4x1x512 : Shape := ⟨3, ![4, 1, 512]⟩
abbrev S4x512x768 : Shape := ⟨3, ![4, 512, 768]⟩
abbrev S4x512x1024 : Shape := ⟨3, ![4, 512, 1024]⟩
abbrev S4x512x7 : Shape := ⟨3, ![4, 512, 7]⟩
abbrev S512x512 : Shape := ⟨2, ![512, 512]⟩
abbrev S1x1x512 : Shape := ⟨3, ![1, 1, 512]⟩
abbrev S512 : Shape := ⟨1, ![512]⟩
abbrev S1x512x768 : Shape := ⟨3, ![1, 512, 768]⟩
abbrev S512x768 : Shape := ⟨2, ![512, 768]⟩
abbrev S1x512x1024 : Shape := ⟨3, ![1, 512, 1024]⟩
abbrev S512x1024 : Shape := ⟨2, ![512, 1024]⟩
abbrev S512x7 : Shape := ⟨2, ![512, 7]⟩
abbrev S1x512 : Shape := ⟨2, ![1, 512]⟩
abbrev S1x512x7 : Shape := ⟨3, ![1, 512, 7]⟩

abbrev nBuf : Space → Nat
  | .hbm => 27
  | .vmem => 11
  | .smem => 0
  | _ => 0

abbrev bufTy : (tb : Table) → Fin (tcTables nBuf tb) → BufTy
  | .hbm, ⟨0, _⟩ => ⟨S64x512x768, .f32⟩
  | .hbm, ⟨1, _⟩ => ⟨S64x512x1024, .f32⟩
  | .hbm, ⟨2, _⟩ => ⟨S64x512, .i32⟩
  | .hbm, ⟨3, _⟩ => ⟨S1792x7, .f32⟩
  | .hbm, ⟨4, _⟩ => ⟨S7, .f32⟩
  | .hbm, ⟨5, _⟩ => ⟨S_, .i32⟩
  | .hbm, ⟨6, _⟩ => ⟨S64x512, .i32⟩
  | .hbm, ⟨7, _⟩ => ⟨S64x512, .i1⟩
  | .hbm, ⟨8, _⟩ => ⟨S64x512, .i32⟩
  | .hbm, ⟨9, _⟩ => ⟨S_, .i32⟩
  | .hbm, ⟨10, _⟩ => ⟨S_, .i32⟩
  | .hbm, ⟨11, _⟩ => ⟨S64x512, .i32⟩
  | .hbm, ⟨12, _⟩ => ⟨S_, .i32⟩
  | .hbm, ⟨13, _⟩ => ⟨S64x512, .i32⟩
  | .hbm, ⟨14, _⟩ => ⟨S64x512, .i32⟩
  | .hbm, ⟨15, _⟩ => ⟨S_, .i32⟩
  | .hbm, ⟨16, _⟩ => ⟨S64x512, .i32⟩
  | .hbm, ⟨17, _⟩ => ⟨S64x512, .i1⟩
  | .hbm, ⟨18, _⟩ => ⟨S_, .i32⟩
  | .hbm, ⟨19, _⟩ => ⟨S_, .i32⟩
  | .hbm, ⟨20, _⟩ => ⟨S64x512, .i32⟩
  | .hbm, ⟨21, _⟩ => ⟨S64x512, .i32⟩
  | .hbm, ⟨22, _⟩ => ⟨S64x1x512, .i32⟩
  | .hbm, ⟨23, _⟩ => ⟨S768x7, .f32⟩
  | .hbm, ⟨24, _⟩ => ⟨S1024x7, .f32⟩
  | .hbm, ⟨25, _⟩ => ⟨S1x7, .f32⟩
  | .hbm, ⟨26, _⟩ => ⟨S64x512x7, .f32⟩
  | .local _ .vmem, ⟨0, _⟩ => ⟨S4x1x512, .i32⟩
  | .local _ .vmem, ⟨1, _⟩ => ⟨S4x1x512, .i32⟩
  | .local _ .vmem, ⟨2, _⟩ => ⟨S4x512x768, .f32⟩
  | .local _ .vmem, ⟨3, _⟩ => ⟨S4x512x768, .f32⟩
  | .local _ .vmem, ⟨4, _⟩ => ⟨S4x512x1024, .f32⟩
  | .local _ .vmem, ⟨5, _⟩ => ⟨S4x512x1024, .f32⟩
  | .local _ .vmem, ⟨6, _⟩ => ⟨S768x7, .f32⟩
  | .local _ .vmem, ⟨7, _⟩ => ⟨S1024x7, .f32⟩
  | .local _ .vmem, ⟨8, _⟩ => ⟨S1x7, .f32⟩
  | .local _ .vmem, ⟨9, _⟩ => ⟨S4x512x7, .f32⟩
  | .local _ .vmem, ⟨10, _⟩ => ⟨S4x512x7, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S64x512 : S_.BroadcastsInDim S64x512 (![] : Fin 0 → Fin S64x512.rank)
  natLt_1_32 : 1 < 32
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  shapeCasts_S64x512_S64x1x512 : S64x512.ShapeCasts S64x1x512
  slices_S1792x7_S768x7_0_0 : S1792x7.Slices ![0, 0] S768x7
  slices_S1792x7_S1024x7_768_0 : S1792x7.Slices ![768, 0] S1024x7
  shapeCasts_S7_S1x7 : S7.ShapeCasts S1x7
  inb_S768x7_S768x7_0_0 : ∀ a, (![0, 0] : Fin 2 → Nat) a + S768x7.size a ≤ S768x7.size a
  h_S768x7 : 0 < S768x7.numel
  shapeCasts_S768x7_S768x7 : S768x7.ShapeCasts S768x7
  bitsLt_bf16_f32 : FTy.bits .bf16 < FTy.bits .f32
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  iota_S512x512_d0_w32 : S512x512.Iotas .tc 32 [0]
  inb_S4x1x512_S1x1x512_0_0_0 : ∀ a, (![0, 0, 0] : Fin 3 → Nat) a + S1x1x512.size a ≤ S4x1x512.size a
  h_S1x1x512 : 0 < S1x1x512.numel
  shapeCasts_S1x1x512_S512 : S1x1x512.ShapeCasts S512
  inb_S4x512x768_S1x512x768_0_0_0 : ∀ a, (![0, 0, 0] : Fin 3 → Nat) a + S1x512x768.size a ≤ S4x512x768.size a
  h_S1x512x768 : 0 < S1x512x768.numel
  shapeCasts_S1x512x768_S512x768 : S1x512x768.ShapeCasts S512x768
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  shapeCasts_S512_S1x512 : S512.ShapeCasts S1x512
  shapeCasts_S1x512_S1x512 : S1x512.ShapeCasts S1x512
  broadcasts_S1x512_S512x512 : S1x512.Broadcasts S512x512
  broadcasts_S1x7_S512x7 : S1x7.Broadcasts S512x7
  inb_S4x512x7_S1x512x7_0_0_0 : ∀ a, (![0, 0, 0] : Fin 3 → Nat) a + S1x512x7.size a ≤ S4x512x7.size a
  h_S1x512x7 : 0 < S1x512x7.numel
  shapeCasts_S1x512x7_S512x7 : S1x512x7.ShapeCasts S512x7
  shapeCasts_S512x7_S1x512x7 : S512x7.ShapeCasts S1x512x7
  inb_S4x1x512_S1x1x512_1_0_0 : ∀ a, (![1, 0, 0] : Fin 3 → Nat) a + S1x1x512.size a ≤ S4x1x512.size a
  inb_S4x512x768_S1x512x768_1_0_0 : ∀ a, (![1, 0, 0] : Fin 3 → Nat) a + S1x512x768.size a ≤ S4x512x768.size a
  inb_S4x512x1024_S1x512x1024_1_0_0 : ∀ a, (![1, 0, 0] : Fin 3 → Nat) a + S1x512x1024.size a ≤ S4x512x1024.size a
  inb_S4x512x7_S1x512x7_1_0_0 : ∀ a, (![1, 0, 0] : Fin 3 → Nat) a + S1x512x7.size a ≤ S4x512x7.size a
  inb_S4x1x512_S1x1x512_2_0_0 : ∀ a, (![2, 0, 0] : Fin 3 → Nat) a + S1x1x512.size a ≤ S4x1x512.size a
  inb_S4x512x768_S1x512x768_2_0_0 : ∀ a, (![2, 0, 0] : Fin 3 → Nat) a + S1x512x768.size a ≤ S4x512x768.size a
  inb_S4x512x1024_S1x512x1024_2_0_0 : ∀ a, (![2, 0, 0] : Fin 3 → Nat) a + S1x512x1024.size a ≤ S4x512x1024.size a
  inb_S4x512x7_S1x512x7_2_0_0 : ∀ a, (![2, 0, 0] : Fin 3 → Nat) a + S1x512x7.size a ≤ S4x512x7.size a
  inb_S4x1x512_S1x1x512_3_0_0 : ∀ a, (![3, 0, 0] : Fin 3 → Nat) a + S1x1x512.size a ≤ S4x1x512.size a
  inb_S4x512x768_S1x512x768_3_0_0 : ∀ a, (![3, 0, 0] : Fin 3 → Nat) a + S1x512x768.size a ≤ S4x512x768.size a
  inb_S4x512x1024_S1x512x1024_3_0_0 : ∀ a, (![3, 0, 0] : Fin 3 → Nat) a + S1x512x1024.size a ≤ S4x512x1024.size a
  inb_S4x512x7_S1x512x7_3_0_0 : ∀ a, (![3, 0, 0] : Fin 3 → Nat) a + S1x512x7.size a ≤ S4x512x7.size a
  dot_S512x768_S768x7_S512x7_1_0_0_1_n_n_wf : DotDims.WF S512x768 S768x7 S512x7 [1] [0] [0] [1] [] []
  dot_S512x1024_S1024x7_S512x7_1_0_0_1_n_n_wf : DotDims.WF S512x1024 S1024x7 S512x7 [1] [0] [0] [1] [] []
  dot_S512x512_S512x7_S512x7_1_0_0_1_n_n_wf : DotDims.WF S512x512 S512x7 S512x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512.size a ≤ S64x1x512.size a
  hwx0_0 : ∀ i : grid0.Coords, EltTy.bits .i32 = 32 ∨ (Rect.block (s := S64x1x512) S4x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x768.size a ≤ S64x512x768.size a
  hwx0_1 : ∀ i : grid0.Coords, EltTy.bits .f32 = 32 ∨ (Rect.block (s := S64x512x768) S4x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S64x512x1024.size a
  hwx0_2 : ∀ i : grid0.Coords, EltTy.bits .f32 = 32 ∨ (Rect.block (s := S64x512x1024) S4x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x7.size a ≤ S768x7.size a
  hwx0_3 : ∀ i : grid0.Coords, EltTy.bits .f32 = 32 ∨ (Rect.block (s := S768x7) S768x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x7.size a ≤ S1024x7.size a
  hwx0_4 : ∀ i : grid0.Coords, EltTy.bits .f32 = 32 ∨ (Rect.block (s := S1024x7) S1024x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x7.size a ≤ S64x512x7.size a
  hwx0_6 : ∀ i : grid0.Coords, EltTy.bits .f32 = 32 ∨ (Rect.block (s := S64x512x7) S4x512x7.size (cc0_transform_6 i) (hinb0_6 i)).WholeWords (EltTy.packing .f32)

variable [Facts₀]

def dot_S512x768_S768x7_S512x7_1_0_0_1_n_n : DotDims S512x768 S768x7 S512x7 where
  lhsContracting := [1]
  rhsContracting := [0]
  lhsNonContracting := [0]
  rhsNonContracting := [1]
  lhsBatch := []
  rhsBatch := []
  wf := dot_S512x768_S768x7_S512x7_1_0_0_1_n_n_wf
def dot_S512x1024_S1024x7_S512x7_1_0_0_1_n_n : DotDims S512x1024 S1024x7 S512x7 where
  lhsContracting := [1]
  rhsContracting := [0]
  lhsNonContracting := [0]
  rhsNonContracting := [1]
  lhsBatch := []
  rhsBatch := []
  wf := dot_S512x1024_S1024x7_S512x7_1_0_0_1_n_n_wf
def dot_S512x512_S512x7_S512x7_1_0_0_1_n_n : DotDims S512x512 S512x7 S512x7 where
  lhsContracting := [1]
  rhsContracting := [0]
  lhsNonContracting := [0]
  rhsNonContracting := [1]
  lhsBatch := []
  rhsBatch := []
  wf := dot_S512x512_S512x7_S512x7_1_0_0_1_n_n_wf

abbrev win0_0 : Pipeline.Window sig grid0 :=
  Pipeline.Window.ofSpec (Memref.whole main_v9) S4x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S768x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4x512x7.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512x1024 : Shape := ⟨3, ![64, 512, 1024]⟩
abbrev S64x512 : Shape := ⟨2, ![64, 512]⟩
abbrev S1792x7 : Shape := ⟨2, ![1792, 7]⟩
abbrev S7 : Shape := ⟨1, ![7]⟩
abbrev S_ : Shape := ⟨0, ![]⟩
abbrev S64 : Shape := ⟨1, ![64]⟩
abbrev S64x1 : Shape := ⟨2, ![64, 1]⟩
abbrev S64x513x768 : Shape := ⟨3, ![64, 513, 768]⟩
abbrev S64x512x1 : Shape := ⟨3, ![64, 512, 1]⟩
abbrev S64x512x2 : Shape := ⟨3, ![64, 512, 2]⟩
abbrev S64x512x1792 : Shape := ⟨3, ![64, 512, 1792]⟩
abbrev S64x512x7 : Shape := ⟨3, ![64, 512, 7]⟩
abbrev S1x1x7 : Shape := ⟨3, ![1, 1, 7]⟩

abbrev nBuf : Space → Nat
  | .hbm => 47
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512x1024, .f32⟩
  | .hbm, ⟨2, _⟩ => ⟨S64x512, .i32⟩
  | .hbm, ⟨3, _⟩ => ⟨S1792x7, .f32⟩
  | .hbm, ⟨4, _⟩ => ⟨S7, .f32⟩
  | .hbm, ⟨5, _⟩ => ⟨S_, .i32⟩
  | .hbm, ⟨6, _⟩ => ⟨S_, .i32⟩
  | .hbm, ⟨7, _⟩ => ⟨S64x512, .i32⟩
  | .hbm, ⟨8, _⟩ => ⟨S_, .i32⟩
  | .hbm, ⟨9, _⟩ => ⟨S64x512, .i32⟩
  | .hbm, ⟨10, _⟩ => ⟨S64x512, .i32⟩
  | .hbm, ⟨11, _⟩ => ⟨S_, .i32⟩
  | .hbm, ⟨12, _⟩ => ⟨S64x512, .i32⟩
  | .hbm, ⟨13, _⟩ => ⟨S64x512, .i1⟩
  | .hbm, ⟨14, _⟩ => ⟨S_, .i32⟩
  | .hbm, ⟨15, _⟩ => ⟨S_, .i32⟩
  | .hbm, ⟨16, _⟩ => ⟨S64x512, .i32⟩
  | .hbm, ⟨17, _⟩ => ⟨S64x512, .i32⟩
  | .hbm, ⟨18, _⟩ => ⟨S64, .i32⟩
  | .hbm, ⟨19, _⟩ => ⟨S64x1, .i32⟩
  | .hbm, ⟨20, _⟩ => ⟨S_, .f32⟩
  | .hbm, ⟨21, _⟩ => ⟨S64x513x768, .f32⟩
  | .hbm, ⟨22, _⟩ => ⟨S_, .i32⟩
  | .hbm, ⟨23, _⟩ => ⟨S64x1, .i32⟩
  | .hbm, ⟨24, _⟩ => ⟨S64x1, .i1⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S_, .i32⟩
  | .hbm, ⟨30, _⟩ => ⟨S64x512, .i32⟩
  | .hbm, ⟨31, _⟩ => ⟨S64x512, .i1⟩
  | .hbm, ⟨32, _⟩ => ⟨S_, .i32⟩
  | .hbm, ⟨33, _⟩ => ⟨S64x512, .i32⟩
  | .hbm, ⟨34, _⟩ => ⟨S64x512, .i32⟩
  | .hbm, ⟨35, _⟩ => ⟨S64x512, .i32⟩
  | .hbm, ⟨36, _⟩ => ⟨S64x512, .i32⟩
  | .hbm, ⟨37, _⟩ => ⟨S64x512x1, .i32⟩
  | .hbm, ⟨38, _⟩ => ⟨S64x512x1, .i32⟩
  | .hbm, ⟨39, _⟩ => ⟨S64x512x2, .i32⟩
  | .hbm, ⟨40, _⟩ => ⟨S64x513x768, .f32⟩
  | .hbm, ⟨41, _⟩ => ⟨S64x512x768, .f32⟩
  | .hbm, ⟨42, _⟩ => ⟨S64x512x1792, .f32⟩
  | .hbm, ⟨43, _⟩ => ⟨S64x512x7, .f32⟩
  | .hbm, ⟨44, _⟩ => ⟨S1x1x7, .f32⟩
  | .hbm, ⟨45, _⟩ => ⟨S64x512x7, .f32⟩
  | .hbm, ⟨46, _⟩ => ⟨S64x512x7, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S_S64x512 : S_.BroadcastsInDim S64x512 (![] : Fin 0 → Fin S64x512.rank)
  bcast_S64_S64x1_0 : S64.BroadcastsInDim S64x1 (![0] : Fin 1 → Fin S64x1.rank)
  bcast_S_S64x513x768 : S_.BroadcastsInDim S64x513x768 (![] : Fin 0 → Fin S64x513x768.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  slices_S64x513x768_S64x512x768_0_0_0 : S64x513x768.Slices ![0, 0, 0] S64x512x768
  concatenates_S64x512x768_S64x512x1024_S64x512x1792_d2 : Shape.Concatenates [S64x512x768, S64x512x1024] S64x512x1792 2
  bcast_S7_S1x1x7_2 : S7.BroadcastsInDim S1x1x7 (![2] : Fin 1 → Fin S1x1x7.rank)
  bcast_S1x1x7_S64x512x7_0_1_2 : S1x1x7.BroadcastsInDim S64x512x7 (![0, 1, 2] : Fin 3 → Fin S64x512x7.rank)
  scatter_S64x513x768_S64x512x2_S64x512x768_2_01_01_2_wf : ScatterDims.WF S64x513x768 S64x512x2 S64x512x768 [2] [0, 1] [0, 1] 2
  dot_S64x512x1792_S1792x7_S64x512x7_2_0_01_1_n_n_wf : DotDims.WF S64x512x1792 S1792x7 S64x512x7 [2] [0] [0, 1] [1] [] []

variable [Facts₀]

def scatter_S64x513x768_S64x512x2_S64x512x768_2_01_01_2 : ScatterDims S64x513x768 S64x512x2 S64x512x768 where
  updateWindowDims := [2]
  insertedWindowDims := [0, 1]
  scatterDimsToOperandDims := [0, 1]
  indexVectorDim := 2
  wf := scatter_S64x513x768_S64x512x2_S64x512x768_2_01_01_2_wf
def dot_S64x512x1792_S1792x7_S64x512x7_2_0_01_1_n_n : DotDims S64x512x1792 S1792x7 S64x512x7 where
  lhsContracting := [2]
  rhsContracting := [0]
  lhsNonContracting := [0, 1]
  rhsNonContracting := [1]
  lhsBatch := []
  rhsBatch := []
  wf := dot_S64x512x1792_S1792x7_S64x512x7_2_0_01_1_n_n_wf

class Facts : Prop extends Facts₀ where

variable [Facts]
-- ==== Proof.KernelHost.lean ====
/-
  What the kernel's region finds in the arrays its windows stage, as terms of the arguments: the slot array (the
  validity words compared with one, widened, counted along the row, minus one where the word is one and 512 elsewhere)
  laid out `[64, 1, 512]`, the weight's first 768 rows and its last 1024 rows, and the bias as a `[1, 7]` row.
-/
import proofs.«403301_j84507776516624_3_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The validity words compared with one, as 0/1 words. -/
def kmaskT (v : IVec S64x512 32) : IVec S64x512 32 :=
  extui 32 (cmpi .eq v (broadcastInDim S64x512 ![] bcast_S_S64x512 (constantI S_ 32 1#32))) natLt_1_32

/-- Their running count along each row. -/
def kcumT (v : IVec S64x512 32) : IVec S64x512 32 :=
  Host.reduceWindow IntOp.addi ![1, 512] ![1, 1] ![0, 511] ![0, 0] (kmaskT v)
    (broadcastInDim S_ ![] bcast_S_S_ (constantI S_ 32 0#32))
    reduceWindows_S64x512_S64x512_w1s1p0_0_w512s1p511_0 h_S_

/-- The slot of each token. -/
def kposT (v : IVec S64x512 32) : IVec S64x512 32 :=
  select (cmpi .eq v (broadcastInDim S64x512 ![] bcast_S_S64x512 (constantI S_ 32 1#32)))
    (subi (kcumT v) (broadcastInDim S64x512 ![] bcast_S_S64x512 (constantI S_ 32 1#32)))
    (broadcastInDim S64x512 ![] bcast_S_S64x512 (id (constantI S_ 32 512#32)))

variable (m : (ℓ : Loc nD τ sig) → Buf (Elt F) ℓ)

attribute [local irreducible] Host.reduceWindow in
/-- The slot window's array is the slot array with a unit axis in the middle. -/
theorem V_v9 (c : Dev nD) :
    (V m c main_v9 : S64x1x512.Idx → BitVec 32)
      = shapeCast S64x1x512 (kposT (m ((c : Thread nD τ).loc main_arg2))) shapeCasts_S64x512_S64x1x512 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  unfold kposT kcumT kmaskT
  rfl

/-- The first weight window's array is the weight's rows 0 … 767. -/
theorem V_v10 (c : Dev nD) :
    (V m c main_v10 : S768x7.Idx → Elt F .f32)
      = extractStridedSlice S768x7 ![0, 0] (m ((c : Thread nD τ).loc main_arg3)) slices_S1792x7_S768x7_0_0 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results

/-- The second weight window's array is the weight's rows 768 … 1791. -/
theorem V_v11 (c : Dev nD) :
    (V m c main_v11 : S1024x7.Idx → Elt F .f32)
      = extractStridedSlice S1024x7 ![768, 0] (m ((c : Thread nD τ).loc main_arg3)) slices_S1792x7_S1024x7_768_0 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results

/-- The bias window's array is the bias as one row. -/
theorem V_v12 (c : Dev nD) :
    (V m c main_v12 : S1x7.Idx → Elt F .f32)
      = shapeCast S1x7 (m ((c : Thread nD τ).loc main_arg4)) shapeCasts_S7_S1x7 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  rfl

/-- Entry `(b, 0, j)` of the slot window's array is the slot of token `(b, j)`. -/
theorem V_v9_apply (c : Dev nD) (b : Fin 64) (u : Fin 1) (j : Fin 512) :
    (V m c main_v9 : S64x1x512.Idx → BitVec 32) (ix3 b u j) = kposT (m ((c : Thread nD τ).loc main_arg2)) (ix2 b j) := by
  rw [V_v9]
  refine shapeCast_apply _ _ _ _ ?_
  have hu : u.val = 0 := by omega
  rw [Shape.rowMajor_val_two, Shape.rowMajor_val_three]
  show b.val * 512 + j.val = (b.val * 1 + u.val) * 512 + j.val
  rw [hu]; omega

/-- Entry `(h, n)` of the first weight window's array. -/
theorem V_v10_apply (c : Dev nD) (h : Fin 768) (n : Fin 7) :
    (V m c main_v10 : S768x7.Idx → Elt F .f32) (ix2 h n)
      = (m ((c : Thread nD τ).loc main_arg3) : S1792x7.Idx → Elt F .f32) (ix2 (⟨h.val, by omega⟩ : Fin 1792) n) := by
  rw [V_v10]
  refine extractStridedSlice_apply _ _ _ _ _ fun a => ?_
  match a with
  | ⟨0, _⟩ => show h.val = 0 + h.val; omega
  | ⟨1, _⟩ => show n.val = 0 + n.val; omega

/-- Entry `(h, n)` of the second weight window's array. -/
theorem V_v11_apply (c : Dev nD) (h : Fin 1024) (n : Fin 7) :
    (V m c main_v11 : S1024x7.Idx → Elt F .f32) (ix2 h n)
      = (m ((c : Thread nD τ).loc main_arg3) : S1792x7.Idx → Elt F .f32) (ix2 (⟨768 + h.val, by omega⟩ : Fin 1792) n) := by
  rw [V_v11]
  refine extractStridedSlice_apply _ _ _ _ _ fun a => ?_
  match a with
  | ⟨0, _⟩ => show 768 + h.val = 768 + h.val; rfl
  | ⟨1, _⟩ => show n.val = 0 + n.val; omega

/-- Entry `(0, n)` of the bias window's array. -/
theorem V_v12_apply (c : Dev nD) (u : Fin 1) (n : Fin 7) :
    (V m c main_v12 : S1x7.Idx → Elt F .f32) (ix2 u n)
      = (m ((c : Thread nD τ).loc main_arg4) : S7.Idx → Elt F .f32) (ix1 n) := by
  rw [V_v12]
  exact shapeCast_a_1a_apply _ _ u n

end Cert.KernelIdeal.KHost

end
-- ==== Proof.KernelPay.lean ====
/-
  One row of the kernel's body as a function of what it loads, at the ideal instance: with `p` the row's 512 slots,
  `xb` / `xc` the row's two feature blocks, `wb` / `wc` the two halves of the weight and `bs` the bias,
  entry `(s, n)` of the stored row is

      ∑_j [s = p j] · (∑_h xb (j, h) · wb (h, n))  +  ∑_h xc (s, h) · wc (h, n)  +  bs n

  (a change of float format is the identity; the 0/1 selection matrix times the projected rows picks the projected
  row of the token whose slot is `s`).  The body's four rows are this one function of their own loads.
-/
import proofs.«403301_j84507776516624_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.KernelIdeal.Pay

open Cert.KernelIdeal Cert.KernelIdeal.Gen Idealize.ShloMosaic Idealize.ShloMosaic.ValueIdx

private theorem lhs_xb_0 (i : S512x7.Idx) (q : dot_S512x768_S768x7_S512x7_1_0_0_1_n_n.contr.Idx) :
    (dot_S512x768_S768x7_S512x7_1_0_0_1_n_n.lhsIdx i q 0).val = (i 0).val := by
  unfold DotDims.lhsIdx
  rw [dif_neg (show ¬(0 : Fin S512x768.rank) ∈ dot_S512x768_S768x7_S512x7_1_0_0_1_n_n.lhsBatch by decide), dif_pos (show (0 : Fin S512x768.rank) ∈ dot_S512x768_S768x7_S512x7_1_0_0_1_n_n.lhsNonContracting by decide)]
  rfl
private theorem lhs_xb_1 (i : S512x7.Idx) (q : dot_S512x768_S768x7_S512x7_1_0_0_1_n_n.contr.Idx) :
    (dot_S512x768_S768x7_S512x7_1_0_0_1_n_n.lhsIdx i q 1).val = (q ⟨0, by decide⟩).val :=
  dot_S512x768_S768x7_S512x7_1_0_0_1_n_n.lhsIdx_val_of_single rfl i q
private theorem rhs_xb_0 (i : S512x7.Idx) (q : dot_S512x768_S768x7_S512x7_1_0_0_1_n_n.contr.Idx) :
    (dot_S512x768_S768x7_S512x7_1_0_0_1_n_n.rhsIdx i q 0).val = (q ⟨0, by decide⟩).val :=
  dot_S512x768_S768x7_S512x7_1_0_0_1_n_n.rhsIdx_val_of_single rfl i q
private theorem rhs_xb_1 (i : S512x7.Idx) (q : dot_S512x768_S768x7_S512x7_1_0_0_1_n_n.contr.Idx) :
    (dot_S512x768_S768x7_S512x7_1_0_0_1_n_n.rhsIdx i q 1).val = (i 1).val := by
  unfold DotDims.rhsIdx
  rw [dif_neg (show ¬(1 : Fin S768x7.rank) ∈ dot_S512x768_S768x7_S512x7_1_0_0_1_n_n.rhsBatch by decide), dif_pos (show (1 : Fin S768x7.rank) ∈ dot_S512x768_S768x7_S512x7_1_0_0_1_n_n.rhsNonContracting by decide)]
  rfl

/-- The product of a `512 × 768` by a `768 × 7` matrix into a zero accumulator, entry by entry. -/
private theorem matmul_xb_apply {φ₁ φ₂ : FTy} (x : FVec Ideal S512x768 φ₁) (y : FVec Ideal S768x7 φ₂) (s : Fin 512) (n : Fin 7) :
    matmul (F := Ideal) dot_S512x768_S768x7_S512x7_1_0_0_1_n_n none x y (constant (F := Ideal) S512x7 .f32 0x00000000#32) (ix2 s n)
      = ∑ h : Fin 768, x (ix2 s h) * y (ix2 h n) := by
  refine (Ideal.matmul_constant_zero_apply dot_S512x768_S768x7_S512x7_1_0_0_1_n_n none x y (ix2 s n)).trans ?_
  rw [← Equiv.sum_comp (contrEquiv1 dot_S512x768_S768x7_S512x7_1_0_0_1_n_n 768 rfl rfl).symm]
  refine Finset.sum_congr rfl fun k _ => ?_
  have hk := contrEquiv1_symm_val dot_S512x768_S768x7_S512x7_1_0_0_1_n_n 768 rfl rfl k
  have el : dot_S512x768_S768x7_S512x7_1_0_0_1_n_n.lhsIdx (ix2 s n) ((contrEquiv1 dot_S512x768_S768x7_S512x7_1_0_0_1_n_n 768 rfl rfl).symm k) = ix2 s k := funext fun a => Fin.ext (by
    match a with
    | ⟨0, _⟩ => exact lhs_xb_0 _ _
    | ⟨1, _⟩ => exact (lhs_xb_1 _ _).trans hk)
  have er : dot_S512x768_S768x7_S512x7_1_0_0_1_n_n.rhsIdx (ix2 s n) ((contrEquiv1 dot_S512x768_S768x7_S512x7_1_0_0_1_n_n 768 rfl rfl).symm k) = ix2 k n := funext fun a => Fin.ext (by
    match a with
    | ⟨0, _⟩ => exact (rhs_xb_0 _ _).trans hk
    | ⟨1, _⟩ => exact rhs_xb_1 _ _)
  rw [el, er]

private theorem lhs_xc_0 (i : S512x7.Idx) (q : dot_S512x1024_S1024x7_S512x7_1_0_0_1_n_n.contr.Idx) :
    (dot_S512x1024_S1024x7_S512x7_1_0_0_1_n_n.lhsIdx i q 0).val = (i 0).val := by
  unfold DotDims.lhsIdx
  rw [dif_neg (show ¬(0 : Fin S512x1024.rank) ∈ dot_S512x1024_S1024x7_S512x7_1_0_0_1_n_n.lhsBatch by decide), dif_pos (show (0 : Fin S512x1024.rank) ∈ dot_S512x1024_S1024x7_S512x7_1_0_0_1_n_n.lhsNonContracting by decide)]
  rfl
private theorem lhs_xc_1 (i : S512x7.Idx) (q : dot_S512x1024_S1024x7_S512x7_1_0_0_1_n_n.contr.Idx) :
    (dot_S512x1024_S1024x7_S512x7_1_0_0_1_n_n.lhsIdx i q 1).val = (q ⟨0, by decide⟩).val :=
  dot_S512x1024_S1024x7_S512x7_1_0_0_1_n_n.lhsIdx_val_of_single rfl i q
private theorem rhs_xc_0 (i : S512x7.Idx) (q : dot_S512x1024_S1024x7_S512x7_1_0_0_1_n_n.contr.Idx) :
    (dot_S512x1024_S1024x7_S512x7_1_0_0_1_n_n.rhsIdx i q 0).val = (q ⟨0, by decide⟩).val :=
  dot_S512x1024_S1024x7_S512x7_1_0_0_1_n_n.rhsIdx_val_of_single rfl i q
private theorem rhs_xc_1 (i : S512x7.Idx) (q : dot_S512x1024_S1024x7_S512x7_1_0_0_1_n_n.contr.Idx) :
    (dot_S512x1024_S1024x7_S512x7_1_0_0_1_n_n.rhsIdx i q 1).val = (i 1).val := by
  unfold DotDims.rhsIdx
  rw [dif_neg (show ¬(1 : Fin S1024x7.rank) ∈ dot_S512x1024_S1024x7_S512x7_1_0_0_1_n_n.rhsBatch by decide), dif_pos (show (1 : Fin S1024x7.rank) ∈ dot_S512x1024_S1024x7_S512x7_1_0_0_1_n_n.rhsNonContracting by decide)]
  rfl

/-- The product of a `512 × 1024` by a `1024 × 7` matrix into a zero accumulator, entry by entry. -/
private theorem matmul_xc_apply {φ₁ φ₂ : FTy} (x : FVec Ideal S512x1024 φ₁) (y : FVec Ideal S1024x7 φ₂) (s : Fin 512) (n : Fin 7) :
    matmul (F := Ideal) dot_S512x1024_S1024x7_S512x7_1_0_0_1_n_n none x y (constant (F := Ideal) S512x7 .f32 0x00000000#32) (ix2 s n)
      = ∑ h : Fin 1024, x (ix2 s h) * y (ix2 h n) := by
  refine (Ideal.matmul_constant_zero_apply dot_S512x1024_S1024x7_S512x7_1_0_0_1_n_n none x y (ix2 s n)).trans ?_
  rw [← Equiv.sum_comp (contrEquiv1 dot_S512x1024_S1024x7_S512x7_1_0_0_1_n_n 1024 rfl rfl).symm]
  refine Finset.sum_congr rfl fun k _ => ?_
  have hk := contrEquiv1_symm_val dot_S512x1024_S1024x7_S512x7_1_0_0_1_n_n 1024 rfl rfl k
  have el : dot_S512x1024_S1024x7_S512x7_1_0_0_1_n_n.lhsIdx (ix2 s n) ((contrEquiv1 dot_S512x1024_S1024x7_S512x7_1_0_0_1_n_n 1024 rfl rfl).symm k) = ix2 s k := funext fun a => Fin.ext (by
    match a with
    | ⟨0, _⟩ => exact lhs_xc_0 _ _
    | ⟨1, _⟩ => exact (lhs_xc_1 _ _).trans hk)
  have er : dot_S512x1024_S1024x7_S512x7_1_0_0_1_n_n.rhsIdx (ix2 s n) ((contrEquiv1 dot_S512x1024_S1024x7_S512x7_1_0_0_1_n_n 1024 rfl rfl).symm k) = ix2 k n := funext fun a => Fin.ext (by
    match a with
    | ⟨0, _⟩ => exact (rhs_xc_0 _ _).trans hk
    | ⟨1, _⟩ => exact rhs_xc_1 _ _)
  rw [el, er]

private theorem lhs_sel_0 (i : S512x7.Idx) (q : dot_S512x512_S512x7_S512x7_1_0_0_1_n_n.contr.Idx) :
    (dot_S512x512_S512x7_S512x7_1_0_0_1_n_n.lhsIdx i q 0).val = (i 0).val := by
  unfold DotDims.lhsIdx
  rw [dif_neg (show ¬(0 : Fin S512x512.rank) ∈ dot_S512x512_S512x7_S512x7_1_0_0_1_n_n.lhsBatch by decide), dif_pos (show (0 : Fin S512x512.rank) ∈ dot_S512x512_S512x7_S512x7_1_0_0_1_n_n.lhsNonContracting by decide)]
  rfl
private theorem lhs_sel_1 (i : S512x7.Idx) (q : dot_S512x512_S512x7_S512x7_1_0_0_1_n_n.contr.Idx) :
    (dot_S512x512_S512x7_S512x7_1_0_0_1_n_n.lhsIdx i q 1).val = (q ⟨0, by decide⟩).val :=
  dot_S512x512_S512x7_S512x7_1_0_0_1_n_n.lhsIdx_val_of_single rfl i q
private theorem rhs_sel_0 (i : S512x7.Idx) (q : dot_S512x512_S512x7_S512x7_1_0_0_1_n_n.contr.Idx) :
    (dot_S512x512_S512x7_S512x7_1_0_0_1_n_n.rhsIdx i q 0).val = (q ⟨0, by decide⟩).val :=
  dot_S512x512_S512x7_S512x7_1_0_0_1_n_n.rhsIdx_val_of_single rfl i q
private theorem rhs_sel_1 (i : S512x7.Idx) (q : dot_S512x512_S512x7_S512x7_1_0_0_1_n_n.contr.Idx) :
    (dot_S512x512_S512x7_S512x7_1_0_0_1_n_n.rhsIdx i q 1).val = (i 1).val := by
  unfold DotDims.rhsIdx
  rw [dif_neg (show ¬(1 : Fin S512x7.rank) ∈ dot_S512x512_S512x7_S512x7_1_0_0_1_n_n.rhsBatch by decide), dif_pos (show (1 : Fin S512x7.rank) ∈ dot_S512x512_S512x7_S512x7_1_0_0_1_n_n.rhsNonContracting by decide)]
  rfl

/-- The product of a `512 × 512` by a `512 × 7` matrix into a zero accumulator, entry by entry. -/
private theorem matmul_sel_apply {φ₁ φ₂ : FTy} (x : FVec Ideal S512x512 φ₁) (y : FVec Ideal S512x7 φ₂) (s : Fin 512) (n : Fin 7) :
    matmul (F := Ideal) dot_S512x512_S512x7_S512x7_1_0_0_1_n_n none x y (constant (F := Ideal) S512x7 .f32 0x00000000#32) (ix2 s n)
      = ∑ h : Fin 512, x (ix2 s h) * y (ix2 h n) := by
  refine (Ideal.matmul_constant_zero_apply dot_S512x512_S512x7_S512x7_1_0_0_1_n_n none x y (ix2 s n)).trans ?_
  rw [← Equiv.sum_comp (contrEquiv1 dot_S512x512_S512x7_S512x7_1_0_0_1_n_n 512 rfl rfl).symm]
  refine Finset.sum_congr rfl fun k _ => ?_
  have hk := contrEquiv1_symm_val dot_S512x512_S512x7_S512x7_1_0_0_1_n_n 512 rfl rfl k
  have el : dot_S512x512_S512x7_S512x7_1_0_0_1_n_n.lhsIdx (ix2 s n) ((contrEquiv1 dot_S512x512_S512x7_S512x7_1_0_0_1_n_n 512 rfl rfl).symm k) = ix2 s k := funext fun a => Fin.ext (by
    match a with
    | ⟨0, _⟩ => exact lhs_sel_0 _ _
    | ⟨1, _⟩ => exact (lhs_sel_1 _ _).trans hk)
  have er : dot_S512x512_S512x7_S512x7_1_0_0_1_n_n.rhsIdx (ix2 s n) ((contrEquiv1 dot_S512x512_S512x7_S512x7_1_0_0_1_n_n 512 rfl rfl).symm k) = ix2 k n := funext fun a => Fin.ext (by
    match a with
    | ⟨0, _⟩ => exact (rhs_sel_0 _ _).trans hk
    | ⟨1, _⟩ => exact rhs_sel_1 _ _)
  rw [el, er]

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The row counter: entry `(s, j)` of the iota along axis 0 is the word of `s`. -/
theorem iota_rows_apply (h : S512x512.Iotas .tc 32 [0]) (s j : Fin 512) :
    iota .tc S512x512 32 [0] h (ix2 s j) = BitVec.ofNat 32 s.val := by
  show BitVec.ofNat 32 (0 * _ + s.val) = _
  rw [Nat.zero_mul, Nat.zero_add]

/-- The widened comparison bit read as a number: one when the words agree, zero otherwise. -/
theorem sel_entry (a b : BitVec 32) :
    FloatOps.sitofp (F := Ideal) .f32 ((IntOp.cmpi .eq a b).setWidth 32) = if a = b then (1 : EReal) else 0 := by
  by_cases h : a = b
  · rw [if_pos h, StableHlo.Predicate.cmpi_eq_iff.mpr h]
    have e : ((1#1 : BitVec 1).setWidth 32).toInt = 1 := by decide
    show (((((1#1 : BitVec 1).setWidth 32).toInt : ℤ) : ℝ) : EReal) = 1
    rw [e, Int.cast_one, EReal.coe_one]
  · rw [if_neg h, eq_zero_of_ne_one (fun h' => h (StableHlo.Predicate.cmpi_eq_iff.mp h'))]
    have e : ((0#1 : BitVec 1).setWidth 32).toInt = 0 := by decide
    show (((((0#1 : BitVec 1).setWidth 32).toInt : ℤ) : ℝ) : EReal) = 0
    rw [e, Int.cast_zero, EReal.coe_zero]

/-- The slot vector laid along the columns of a `512 × 512` array. -/
private theorem slots_apply (p : Vec Ideal S1x1x512 .i32) (h1 : S1x1x512.ShapeCasts S512) (h2 : S512.ShapeCasts S1x512)
    (h3 : S1x512.ShapeCasts S1x512) (hb : S1x512.Broadcasts S512x512) (s j : Fin 512) :
    broadcastTo S512x512 (shapeCast S1x512 (shapeCast S1x512 (shapeCast S512 p h1) h2) h3) hb (ix2 s j)
      = p (ix3 (0 : Fin 1) (0 : Fin 1) j) := by
  rw [broadcastTo_1b_ab_apply, shapeCast_self, shapeCast_a_1a_apply, shapeCast_11a_a_apply]

/-- Entry `(s, j)` of the selection matrix: one when slot `j` holds `s`, zero otherwise. -/
private theorem selection_apply (p : Vec Ideal S1x1x512 .i32) (hi : S512x512.Iotas .tc 32 [0]) (h1 : S1x1x512.ShapeCasts S512)
    (h2 : S512.ShapeCasts S1x512) (h3 : S1x512.ShapeCasts S1x512) (hb : S1x512.Broadcasts S512x512) (hlt : 1 < 32)
    (hbits : FTy.bits .bf16 < FTy.bits .f32) (s j : Fin 512) :
    truncf .bf16 (sitofp (F := Ideal) .f32 (extui 32 (cmpi .eq (iota .tc S512x512 32 [0] hi)
        (broadcastTo S512x512 (shapeCast S1x512 (shapeCast S1x512 (shapeCast S512 p h1) h2) h3) hb)) hlt)) hbits (ix2 s j)
      = if BitVec.ofNat 32 s.val = p (ix3 (0 : Fin 1) (0 : Fin 1) j) then (1 : EReal) else 0 := by
  rw [truncf_apply, sitofp_apply, extui_apply]
  show FloatOps.sitofp (F := Ideal) .f32 ((IntOp.cmpi .eq (iota .tc S512x512 32 [0] hi (ix2 s j))
    (broadcastTo S512x512 (shapeCast S1x512 (shapeCast S1x512 (shapeCast S512 p h1) h2) h3) hb (ix2 s j))).setWidth 32) = _
  rw [iota_rows_apply, slots_apply, sel_entry]

/-- The first feature block times its half of the weight: the changes of layout and of float format read through. -/
private theorem proj_xb_apply (x : FVec Ideal S1x512x768 .f32) (w : FVec Ideal S768x7 .f32) (h1 : S1x512x768.ShapeCasts S512x768)
    (h2 : S768x7.ShapeCasts S768x7) (hb : FTy.bits .bf16 < FTy.bits .f32) (s : Fin 512) (n : Fin 7) :
    matmul (F := Ideal) dot_S512x768_S768x7_S512x7_1_0_0_1_n_n none (truncf .bf16 (shapeCast S512x768 x h1) hb)
        (truncf .bf16 (shapeCast S768x7 w h2) hb) (constant (F := Ideal) S512x7 .f32 0x00000000#32) (ix2 s n)
      = ∑ h : Fin 768, x (ix3 (0 : Fin 1) s h) * w (ix2 h n) := by
  rw [matmul_xb_apply]
  refine Finset.sum_congr rfl fun h _ => ?_
  rw [truncf_apply, truncf_apply, shapeCast_1ab_ab_apply, shapeCast_self]

/-- The second feature block times its half of the weight. -/
private theorem proj_xc_apply (x : FVec Ideal S1x512x1024 .f32) (w : FVec Ideal S1024x7 .f32) (h1 : S1x512x1024.ShapeCasts S512x1024)
    (h2 : S1024x7.ShapeCasts S1024x7) (hb : FTy.bits .bf16 < FTy.bits .f32) (s : Fin 512) (n : Fin 7) :
    matmul (F := Ideal) dot_S512x1024_S1024x7_S512x7_1_0_0_1_n_n none (truncf .bf16 (shapeCast S512x1024 x h1) hb)
        (truncf .bf16 (shapeCast S1024x7 w h2) hb) (constant (F := Ideal) S512x7 .f32 0x00000000#32) (ix2 s n)
      = ∑ h : Fin 1024, x (ix3 (0 : Fin 1) s h) * w (ix2 h n) := by
  rw [matmul_xc_apply]
  refine Finset.sum_congr rfl fun h _ => ?_
  rw [truncf_apply, truncf_apply, shapeCast_1ab_ab_apply, shapeCast_self]

/-- The bias laid along the rows. -/
private theorem bias_apply (b : FVec Ideal S1x7 .f32) (h : S1x7.ShapeCasts S1x7) (hb : S1x7.Broadcasts S512x7) (s : Fin 512) (n : Fin 7) :
    broadcastTo S512x7 (shapeCast S1x7 b h) hb (ix2 s n) = b (ix2 (0 : Fin 1) n) := by
  rw [broadcastTo_1b_ab_apply, shapeCast_self]

/-- A 0/1 factor selects: `[c] · q` is `q` when `c` holds and zero otherwise. -/
private theorem ite_one_zero_mul (c : Prop) [Decidable c] (q : EReal) : (if c then (1 : EReal) else 0) * q = if c then q else 0 := by
  by_cases h : c
  · rw [if_pos h, if_pos h, one_mul]
  · rw [if_neg h, if_neg h, zero_mul]

/-- The selection matrix times the projected rows, the right operand's change of float format read through. -/
private theorem selected_apply (M : FVec Ideal S512x512 .bf16) (Q : FVec Ideal S512x7 .f32) (hb : FTy.bits .bf16 < FTy.bits .f32)
    (s : Fin 512) (n : Fin 7) :
    matmul (F := Ideal) dot_S512x512_S512x7_S512x7_1_0_0_1_n_n none M (truncf .bf16 Q hb) (constant (F := Ideal) S512x7 .f32 0x00000000#32) (ix2 s n)
      = ∑ j : Fin 512, M (ix2 s j) * Q (ix2 j n) := by
  rw [matmul_sel_apply]
  refine Finset.sum_congr rfl fun j _ => ?_
  rw [truncf_apply]

/-- Entry `(0, s, n)` of the first row's stored value. -/
theorem pay5_apply (wb : Vec Ideal S768x7 .f32) (wc : Vec Ideal S1024x7 .f32) (bs : Vec Ideal S1x7 .f32)
    (p : Vec Ideal S1x1x512 .i32) (xb : Vec Ideal S1x512x768 .f32) (xc : Vec Ideal S1x512x1024 .f32)
    (s : Fin 512) (n : Fin 7) :
    k0_pay5 (F := Ideal) wb wc bs p xb xc (ix3 (0 : Fin 1) s n)
      = ((∑ j : Fin 512, if BitVec.ofNat 32 s.val = p (ix3 (0 : Fin 1) (0 : Fin 1) j)
              then ∑ h : Fin 768, xb (ix3 (0 : Fin 1) j h) * wb (ix2 h n) else 0)
          + ∑ h : Fin 1024, xc (ix3 (0 : Fin 1) s h) * wc (ix2 h n))
        + bs (ix2 (0 : Fin 1) n) := by
  unfold k0_pay5 k0_pay2 k0_pay3 k0_pay4
  refine (shapeCast_ab_1ab_apply _ _ 0 s n).trans ?_
  refine (addf_apply _ _ _).trans ?_
  refine congrArg₂ (· + ·) ((addf_apply _ _ _).trans (congrArg₂ (· + ·) ?_ ?_)) ?_
  · refine (selected_apply _ _ _ s n).trans ?_
    refine Finset.sum_congr rfl fun j _ => ?_
    rw [selection_apply, proj_xb_apply]
    exact ite_one_zero_mul _ _
  · exact proj_xc_apply xc wc _ _ _ s n
  · exact bias_apply bs _ _ s n

variable {F : FTy → Type} [FloatOps F]

/-- The second row's stored value is the first row's function of its own loads. -/
theorem row1_eq (wb : Vec F S768x7 .f32) (wc : Vec F S1024x7 .f32) (bs : Vec F S1x7 .f32)
    (p : Vec F S1x1x512 .i32) (xb : Vec F S1x512x768 .f32) (xc : Vec F S1x512x1024 .f32) :
    k0_pay6 (k0_pay2 wb) (k0_pay3 wc) (k0_pay4 bs) (iota .tc S512x512 32 [0] iota_S512x512_d0_w32) p xb xc
      = k0_pay5 wb wc bs p xb xc := by
  rfl

/-- The third row's. -/
theorem row2_eq (wb : Vec F S768x7 .f32) (wc : Vec F S1024x7 .f32) (bs : Vec F S1x7 .f32)
    (p : Vec F S1x1x512 .i32) (xb : Vec F S1x512x768 .f32) (xc : Vec F S1x512x1024 .f32) :
    k0_pay10 (k0_pay3 wc) (k0_pay4 bs) (iota .tc S512x512 32 [0] iota_S512x512_d0_w32) (k0_pay7 p) (k0_pay8 xc)
        (k0_pay9 (k0_pay2 wb) xb)
      = k0_pay5 wb wc bs p xb xc := by
  rfl

/-- The fourth row's. -/
theorem row3_eq (wb : Vec F S768x7 .f32) (wc : Vec F S1024x7 .f32) (bs : Vec F S1x7 .f32)
    (p : Vec F S1x1x512 .i32) (xb : Vec F S1x512x768 .f32) (xc : Vec F S1x512x1024 .f32) :
    k0_pay1 (k0_pay11 (k0_pay2 wb) (k0_pay3 wc) (k0_pay4 bs) (iota .tc S512x512 32 [0] iota_S512x512_d0_w32) p xb xc)
      = k0_pay5 wb wc bs p xb xc := by
  rfl

end Cert.KernelIdeal.Pay

end
-- ==== Proof.Spec.lean ====
/-
  The common value of the two programs, index by index, on the extended reals.

  Row `b` of the batch holds `512` tokens.  Each token `j` carries a slot `pos (b, j)` (a 32-bit word): the
  tokens marked valid are numbered `0, 1, 2, …` in order and every other token gets the overflow slot `512`.
  Output row `s` of batch row `b` is

      ∑_j [pos (b, j) = s] · (∑_h x0 (b, j, h) · w (h, n))  +  ∑_h x1 (b, s, h) · w (768 + h, n)  +  bias n,

  the projection of the token compacted into slot `s` (nothing, if no token goes there), plus the projection of
  the second feature block at `s` through the lower rows of the weight, plus the bias.
-/
import Idealize.ShloMosaic.PureOps.Ideal
import Idealize.ShloMosaic.Lib.ValueIdx

noncomputable section

open scoped BigOperators

namespace Cert.Spec

open Idealize.ShloMosaic Idealize.ShloMosaic.ValueIdx

/-- Entry `(b, s, n)` of the result as a function of the argument arrays and the slot array `pos`. -/
def G (x0 : (⟨3, ![64, 512, 768]⟩ : Shape).Idx → EReal) (x1 : (⟨3, ![64, 512, 1024]⟩ : Shape).Idx → EReal)
    (pos : IVec ⟨2, ![64, 512]⟩ 32) (w : (⟨2, ![1792, 7]⟩ : Shape).Idx → EReal) (bias : (⟨1, ![7]⟩ : Shape).Idx → EReal)
    (b : Fin 64) (s : Fin 512) (n : Fin 7) : EReal :=
  ((∑ j : Fin 512, if BitVec.ofNat 32 s.val = pos (ix2 b j)
        then ∑ h : Fin 768, x0 (ix3 b j h) * w (ix2 (⟨h.val, by omega⟩ : Fin 1792) n) else 0)
    + ∑ h : Fin 1024, x1 (ix3 b s h) * w (ix2 (⟨768 + h.val, by omega⟩ : Fin 1792) n))
  + bias (ix1 n)

/-- The whole result array. -/
def Gv (x0 : (⟨3, ![64, 512, 768]⟩ : Shape).Idx → EReal) (x1 : (⟨3, ![64, 512, 1024]⟩ : Shape).Idx → EReal)
    (pos : IVec ⟨2, ![64, 512]⟩ 32) (w : (⟨2, ![1792, 7]⟩ : Shape).Idx → EReal) (bias : (⟨1, ![7]⟩ : Shape).Idx → EReal) :
    (⟨3, ![64, 512, 7]⟩ : Shape).Idx → EReal :=
  fun i => G x0 x1 pos w bias (i 0) (i 1) (i 2)

theorem Gv_ix3 (x0 : (⟨3, ![64, 512, 768]⟩ : Shape).Idx → EReal) (x1 : (⟨3, ![64, 512, 1024]⟩ : Shape).Idx → EReal)
    (pos : IVec ⟨2, ![64, 512]⟩ 32) (w : (⟨2, ![1792, 7]⟩ : Shape).Idx → EReal) (bias : (⟨1, ![7]⟩ : Shape).Idx → EReal)
    (b : Fin 64) (s : Fin 512) (n : Fin 7) : Gv x0 x1 pos w bias (ix3 b s n) = G x0 x1 pos w bias b s n := rfl

end Cert.Spec

end
-- ==== Proof.KernelValue.lean ====
/-
  The kernel's result array as one function of the arguments.

  The grid has 16 points; point `t` stages batch rows `4t … 4t + 3` of the slot array and of the two feature blocks,
  the two weight halves and the bias whole, and writes back rows `4t … 4t + 3` of the result.  The body stores four
  row slabs; slab `r` is one and the same row function of the blocks' row `r`, which read through the windows is the
  specification's entry at batch row `4t + r`.  The 16 written blocks tile the result array.
-/
import proofs.«403301_j84507776516624_3_alg».proof.Proof.Gen.KernelIdeal.Value
import proofs.«403301_j84507776516624_3_alg».proof.Proof.KernelHost
import proofs.«403301_j84507776516624_3_alg».proof.Proof.KernelPay
import proofs.«403301_j84507776516624_3_alg».proof.Proof.Spec
import Idealize.ShloMosaic.Lib.Pipeline.Value
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array: the specification at the arguments and the kernel's slot array. -/
def result (c : Dev nD) : S64x512x7.Idx → EReal :=
  Cert.Spec.Gv (m ((c : Thread nD τ).loc main_arg0)) (m ((c : Thread nD τ).loc main_arg1))
    (KHost.kposT (m ((c : Thread nD τ).loc main_arg2))) (m ((c : Thread nD τ).loc main_arg3))
    (m ((c : Thread nD τ).loc main_arg4))

/-- The printed index maps over the 16 grid points: the three row-blocked inputs and the output move with the point
    along axis 0, the weights and the bias stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 16 := lt_of_lt_of_eq t.isLt N_0

/-- The slot window's block at point `t`: row `r` is batch row `4t + r` of the slot array. -/
theorem iblk0_apply (c : Dev nD) (t : Fin cfg0.N) (r : Fin 4) (u : Fin 1) (j : Fin 512) :
    (iblk m c 0 t : Vec Ideal S4x1x512 .i32) (ix3 r u j)
      = KHost.kposT (m ((c : Thread nD τ).loc main_arg2)) (ix2 (⟨4 * t.val + r.val, by have := t_lt t; omega⟩ : Fin 64) j) := by
  obtain ⟨e0, e1, e2, -⟩ := idx_facts t
  unfold iblk
  rw [View.read_apply]
  show (V m c main_v9 : S64x1x512.Idx → BitVec 32) _ = _
  rw [← KHost.V_v9_apply m c _ u j]
  congr 1
  funext a
  apply Fin.ext
  match a with
  | ⟨0, _⟩ => show win0_0.index t (0 : Fin 3) * 4 + 1 * r.val = 4 * t.val + r.val; rw [e0]; omega
  | ⟨1, _⟩ => show win0_0.index t (1 : Fin 3) * 1 + 1 * u.val = u.val; rw [e1]; omega
  | ⟨2, _⟩ => show win0_0.index t (2 : Fin 3) * 512 + 1 * j.val = j.val; rw [e2]; omega

/-- The first feature window's block at point `t`: row `r` is batch row `4t + r` of the first argument. -/
theorem iblk1_apply (c : Dev nD) (t : Fin cfg0.N) (r : Fin 4) (j : Fin 512) (h : Fin 768) :
    (iblk m c 1 t : Vec Ideal S4x512x768 .f32) (ix3 r j h)
      = (m ((c : Thread nD τ).loc main_arg0) : S64x512x768.Idx → EReal)
          (ix3 (⟨4 * t.val + r.val, by have := t_lt t; omega⟩ : Fin 64) j h) := by
  obtain ⟨-, -, -, e0, e1, e2, -⟩ := idx_facts t
  unfold iblk
  rw [View.read_apply]
  show (V m c main_arg0 : S64x512x768.Idx → EReal) _ = _
  rw [V_main_arg0]
  congr 1
  funext a
  apply Fin.ext
  match a with
  | ⟨0, _⟩ => show win0_1.index t (0 : Fin 3) * 4 + 1 * r.val = 4 * t.val + r.val; rw [e0]; omega
  | ⟨1, _⟩ => show win0_1.index t (1 : Fin 3) * 512 + 1 * j.val = j.val; rw [e1]; omega
  | ⟨2, _⟩ => show win0_1.index t (2 : Fin 3) * 768 + 1 * h.val = h.val; rw [e2]; omega

/-- The second feature window's block at point `t`. -/
theorem iblk2_apply (c : Dev nD) (t : Fin cfg0.N) (r : Fin 4) (j : Fin 512) (h : Fin 1024) :
    (iblk m c 2 t : Vec Ideal S4x512x1024 .f32) (ix3 r j h)
      = (m ((c : Thread nD τ).loc main_arg1) : S64x512x1024.Idx → EReal)
          (ix3 (⟨4 * t.val + r.val, by have := t_lt t; omega⟩ : Fin 64) j h) := by
  obtain ⟨-, -, -, -, -, -, e0, e1, e2, -⟩ := idx_facts t
  unfold iblk
  rw [View.read_apply]
  show (V m c main_arg1 : S64x512x1024.Idx → EReal) _ = _
  rw [V_main_arg1]
  congr 1
  funext a
  apply Fin.ext
  match a with
  | ⟨0, _⟩ => show win0_2.index t (0 : Fin 3) * 4 + 1 * r.val = 4 * t.val + r.val; rw [e0]; omega
  | ⟨1, _⟩ => show win0_2.index t (1 : Fin 3) * 512 + 1 * j.val = j.val; rw [e1]; omega
  | ⟨2, _⟩ => show win0_2.index t (2 : Fin 3) * 1024 + 1 * h.val = h.val; rw [e2]; omega

/-- The first weight window's block is the weight's rows 0 … 767, at every point. -/
theorem iblk3_apply (c : Dev nD) (t : Fin cfg0.N) (h : Fin 768) (n : Fin 7) :
    (iblk m c 3 t : Vec Ideal S768x7 .f32) (ix2 h n)
      = (m ((c : Thread nD τ).loc main_arg3) : S1792x7.Idx → EReal) (ix2 (⟨h.val, by omega⟩ : Fin 1792) n) := by
  obtain ⟨-, -, -, -, -, -, -, -, -, e0, e1, -⟩ := idx_facts t
  unfold iblk
  rw [View.read_apply]
  show (V m c main_v10 : S768x7.Idx → EReal) _ = _
  rw [← KHost.V_v10_apply m c h n]
  congr 1
  funext a
  apply Fin.ext
  match a with
  | ⟨0, _⟩ => show win0_3.index t (0 : Fin 2) * 768 + 1 * h.val = h.val; rw [e0]; omega
  | ⟨1, _⟩ => show win0_3.index t (1 : Fin 2) * 7 + 1 * n.val = n.val; rw [e1]; omega

/-- The second weight window's block is the weight's rows 768 … 1791. -/
theorem iblk4_apply (c : Dev nD) (t : Fin cfg0.N) (h : Fin 1024) (n : Fin 7) :
    (iblk m c 4 t : Vec Ideal S1024x7 .f32) (ix2 h n)
      = (m ((c : Thread nD τ).loc main_arg3) : S1792x7.Idx → EReal) (ix2 (⟨768 + h.val, by omega⟩ : Fin 1792) n) := by
  obtain ⟨-, -, -, -, -, -, -, -, -, -, -, e0, e1, -⟩ := idx_facts t
  unfold iblk
  rw [View.read_apply]
  show (V m c main_v11 : S1024x7.Idx → EReal) _ = _
  rw [← KHost.V_v11_apply m c h n]
  congr 1
  funext a
  apply Fin.ext
  match a with
  | ⟨0, _⟩ => show win0_4.index t (0 : Fin 2) * 1024 + 1 * h.val = h.val; rw [e0]; omega
  | ⟨1, _⟩ => show win0_4.index t (1 : Fin 2) * 7 + 1 * n.val = n.val; rw [e1]; omega

/-- The bias window's block is the bias. -/
theorem iblk5_apply (c : Dev nD) (t : Fin cfg0.N) (u : Fin 1) (n : Fin 7) :
    (iblk m c 5 t : Vec Ideal S1x7 .f32) (ix2 u n)
      = (m ((c : Thread nD τ).loc main_arg4) : S7.Idx → EReal) (ix1 n) := by
  obtain ⟨-, -, -, -, -, -, -, -, -, -, -, -, -, e0, e1, -⟩ := idx_facts t
  unfold iblk
  rw [View.read_apply]
  show (V m c main_v12 : S1x7.Idx → EReal) _ = _
  rw [← KHost.V_v12_apply m c u n]
  congr 1
  funext a
  apply Fin.ext
  match a with
  | ⟨0, _⟩ => show win0_5.index t (0 : Fin 2) * 1 + 1 * u.val = u.val; rw [e0]; omega
  | ⟨1, _⟩ => show win0_5.index t (1 : Fin 2) * 7 + 1 * n.val = n.val; rw [e1]; omega

/-! ## One row slab of the body at a point -/

theorem inbP (r : Fin 4) : ∀ a : Fin 3, (![r.val, 0, 0] : Fin 3 → Nat) a + S1x1x512.size a ≤ S4x1x512.size a := by
  intro a
  have := r.isLt
  match a with
  | ⟨0, _⟩ => show r.val + 1 ≤ 4; omega
  | ⟨1, _⟩ => show 0 + 1 ≤ 1; omega
  | ⟨2, _⟩ => show 0 + 512 ≤ 512; omega

theorem inbB (r : Fin 4) : ∀ a : Fin 3, (![r.val, 0, 0] : Fin 3 → Nat) a + S1x512x768.size a ≤ S4x512x768.size a := by
  intro a
  have := r.isLt
  match a with
  | ⟨0, _⟩ => show r.val + 1 ≤ 4; omega
  | ⟨1, _⟩ => show 0 + 512 ≤ 512; omega
  | ⟨2, _⟩ => show 0 + 768 ≤ 768; omega

theorem inbC (r : Fin 4) : ∀ a : Fin 3, (![r.val, 0, 0] : Fin 3 → Nat) a + S1x512x1024.size a ≤ S4x512x1024.size a := by
  intro a
  have := r.isLt
  match a with
  | ⟨0, _⟩ => show r.val + 1 ≤ 4; omega
  | ⟨1, _⟩ => show 0 + 512 ≤ 512; omega
  | ⟨2, _⟩ => show 0 + 1024 ≤ 1024; omega

/-- Row `r` of the slot block, of the first and of the second feature block, as rectangles. -/
abbrev rP (r : Fin 4) : Rect S4x1x512 := Rect.unit (s := S4x1x512) ![r.val, 0, 0] S1x1x512.size (inbP r)
abbrev rB (r : Fin 4) : Rect S4x512x768 := Rect.unit (s := S4x512x768) ![r.val, 0, 0] S1x512x768.size (inbB r)
abbrev rC (r : Fin 4) : Rect S4x512x1024 := Rect.unit (s := S4x512x1024) ![r.val, 0, 0] S1x512x1024.size (inbC r)

/-- The row function of the blocks' row `r` at point `t` is the specification at batch row `4t + r`. -/
theorem row_value (c : Dev nD) (t : Fin cfg0.N) (r : Fin 4) (s : Fin 512) (n : Fin 7) :
    k0_pay5 (F := Ideal) (View.ld (iblk m c 3 t : Vec Ideal S768x7 .f32) r0_0)
        (View.ld (iblk m c 4 t : Vec Ideal S1024x7 .f32) r0_1) (View.ld (iblk m c 5 t : Vec Ideal S1x7 .f32) r0_2)
        (View.ld (iblk m c 0 t : Vec Ideal S4x1x512 .i32) (rP r)) (View.ld (iblk m c 1 t : Vec Ideal S4x512x768 .f32) (rB r))
        (View.ld (iblk m c 2 t : Vec Ideal S4x512x1024 .f32) (rC r)) (ix3 (0 : Fin 1) s n)
      = result m c (ix3 (⟨4 * t.val + r.val, by have := t_lt t; omega⟩ : Fin 64) s n) := by
  rw [Pay.pay5_apply]
  unfold result
  rw [Cert.Spec.Gv_ix3]
  unfold Cert.Spec.G
  have eP : ∀ j : Fin 512, View.ld (iblk m c 0 t : Vec Ideal S4x1x512 .i32) (rP r) (ix3 (0 : Fin 1) (0 : Fin 1) j)
      = KHost.kposT (m ((c : Thread nD τ).loc main_arg2)) (ix2 (⟨4 * t.val + r.val, by have := t_lt t; omega⟩ : Fin 64) j) := by
    intro j
    rw [← iblk0_apply m c t r (0 : Fin 1) j]
    show (iblk m c 0 t : Vec Ideal S4x1x512 .i32) ((rP r).emb (ix3 (0 : Fin 1) (0 : Fin 1) j)) = _
    congr 1
    funext a
    apply Fin.ext
    match a with
    | ⟨0, _⟩ => show r.val + 1 * 0 = r.val; omega
    | ⟨1, _⟩ => show 0 + 1 * 0 = 0; rfl
    | ⟨2, _⟩ => show 0 + 1 * j.val = j.val; omega
  have eB : ∀ (j : Fin 512) (h : Fin 768), View.ld (iblk m c 1 t : Vec Ideal S4x512x768 .f32) (rB r) (ix3 (0 : Fin 1) j h)
      = (m ((c : Thread nD τ).loc main_arg0) : S64x512x768.Idx → EReal) (ix3 (⟨4 * t.val + r.val, by have := t_lt t; omega⟩ : Fin 64) j h) := by
    intro j h
    rw [← iblk1_apply m c t r j h]
    show (iblk m c 1 t : Vec Ideal S4x512x768 .f32) ((rB r).emb (ix3 (0 : Fin 1) j h)) = _
    congr 1
    funext a
    apply Fin.ext
    match a with
    | ⟨0, _⟩ => show r.val + 1 * 0 = r.val; omega
    | ⟨1, _⟩ => show 0 + 1 * j.val = j.val; omega
    | ⟨2, _⟩ => show 0 + 1 * h.val = h.val; omega
  have eC : ∀ (j : Fin 512) (h : Fin 1024), View.ld (iblk m c 2 t : Vec Ideal S4x512x1024 .f32) (rC r) (ix3 (0 : Fin 1) j h)
      = (m ((c : Thread nD τ).loc main_arg1) : S64x512x1024.Idx → EReal) (ix3 (⟨4 * t.val + r.val, by have := t_lt t; omega⟩ : Fin 64) j h) := by
    intro j h
    rw [← iblk2_apply m c t r j h]
    show (iblk m c 2 t : Vec Ideal S4x512x1024 .f32) ((rC r).emb (ix3 (0 : Fin 1) j h)) = _
    congr 1
    funext a
    apply Fin.ext
    match a with
    | ⟨0, _⟩ => show r.val + 1 * 0 = r.val; omega
    | ⟨1, _⟩ => show 0 + 1 * j.val = j.val; omega
    | ⟨2, _⟩ => show 0 + 1 * h.val = h.val; omega
  have e3 : ∀ (h : Fin 768) (n : Fin 7), View.ld (iblk m c 3 t : Vec Ideal S768x7 .f32) r0_0 (ix2 h n)
      = (m ((c : Thread nD τ).loc main_arg3) : S1792x7.Idx → EReal) (ix2 (⟨h.val, by omega⟩ : Fin 1792) n) := by
    intro h n
    rw [← iblk3_apply m c t h n]
    show (iblk m c 3 t : Vec Ideal S768x7 .f32) (r0_0.emb (ix2 h n)) = _
    congr 1
    funext a
    apply Fin.ext
    match a with
    | ⟨0, _⟩ => show 0 + 1 * h.val = h.val; omega
    | ⟨1, _⟩ => show 0 + 1 * n.val = n.val; omega
  have e4 : ∀ (h : Fin 1024) (n : Fin 7), View.ld (iblk m c 4 t : Vec Ideal S1024x7 .f32) r0_1 (ix2 h n)
      = (m ((c : Thread nD τ).loc main_arg3) : S1792x7.Idx → EReal) (ix2 (⟨768 + h.val, by omega⟩ : Fin 1792) n) := by
    intro h n
    rw [← iblk4_apply m c t h n]
    show (iblk m c 4 t : Vec Ideal S1024x7 .f32) (r0_1.emb (ix2 h n)) = _
    congr 1
    funext a
    apply Fin.ext
    match a with
    | ⟨0, _⟩ => show 0 + 1 * h.val = h.val; omega
    | ⟨1, _⟩ => show 0 + 1 * n.val = n.val; omega
  have e5 : ∀ (n : Fin 7), View.ld (iblk m c 5 t : Vec Ideal S1x7 .f32) r0_2 (ix2 (0 : Fin 1) n)
      = (m ((c : Thread nD τ).loc main_arg4) : S7.Idx → EReal) (ix1 n) := by
    intro n
    rw [← iblk5_apply m c t (0 : Fin 1) n]
    show (iblk m c 5 t : Vec Ideal S1x7 .f32) (r0_2.emb (ix2 (0 : Fin 1) n)) = _
    congr 1
    funext a
    apply Fin.ext
    match a with
    | ⟨0, _⟩ => show 0 + 1 * 0 = 0; rfl
    | ⟨1, _⟩ => show 0 + 1 * n.val = n.val; omega
  simp only [eP, eB, eC, e3, e4, e5]

/-! ## The four slabs, the write-back, the cover -/

/-- What point `t`'s output block holds, as a function of the block index: the specification at batch row
    `4t + ` the block's row. -/
def Gblk (c : Dev nD) (t : Fin cfg0.N) : S4x512x7.Idx → EReal := fun y =>
  result m c (ix3 (⟨4 * t.val + (y 0).val, by have := t_lt t; have : (y 0).val < 4 := (y 0).isLt; omega⟩ : Fin 64) (y 1) (y 2))

theorem Gblk_of (c : Dev nD) (t : Fin cfg0.N) (r : Fin 4) (s : Fin 512) (n : Fin 7) (y : S4x512x7.Idx)
    (h0 : (y 0).val = r.val) (h1 : (y 1).val = s.val) (h2 : (y 2).val = n.val) :
    Gblk m c t y = result m c (ix3 (⟨4 * t.val + r.val, by have := t_lt t; omega⟩ : Fin 64) s n) := by
  unfold Gblk
  congr 1
  funext a
  match a with
  | ⟨0, _⟩ => exact Fin.ext (by show 4 * t.val + (y 0).val = 4 * t.val + r.val; omega)
  | ⟨1, _⟩ => exact Fin.ext h1
  | ⟨2, _⟩ => exact Fin.ext h2

/-- The body's four stores, read at a block index: the block function. -/
theorem out_apply (c : Dev nD) (t : Fin cfg0.N) (y : S4x512x7.Idx) :
    out0_6 (F := Ideal) (iblk m c 0 t) (iblk m c 1 t) (iblk m c 2 t) (iblk m c 3 t) (iblk m c 4 t) (iblk m c 5 t) y
      = Gblk m c t y := by
  unfold out0_6
  refine View.canon_apply_of_pieces (Val := Elt Ideal) (e := .f32) (Gblk m c t) _ ?_ y (cover0_6 _ _ _ _ y)
  intro p hp
  simp only [List.mem_cons, List.not_mem_nil, or_false] at hp
  rcases hp with rfl | rfl | rfl | rfl
  · intro x
    obtain ⟨u, s, n, rfl⟩ : ∃ (u : Fin 1) (s : Fin 512) (n : Fin 7), x = ix3 u s n := ⟨x 0, x 1, x 2, eq_ix3 x⟩
    obtain rfl : u = 0 := Subsingleton.elim _ _
    refine (congrFun (Pay.row3_eq _ _ _ _ _ _) _).trans ?_
    refine (row_value m c t 3 s n).trans (Gblk_of m c t 3 s n _ ?_ ?_ ?_).symm
    · rfl
    · show 0 + 1 * s.val = s.val; omega
    · show 0 + 1 * n.val = n.val; omega
  · intro x
    obtain ⟨u, s, n, rfl⟩ : ∃ (u : Fin 1) (s : Fin 512) (n : Fin 7), x = ix3 u s n := ⟨x 0, x 1, x 2, eq_ix3 x⟩
    obtain rfl : u = 0 := Subsingleton.elim _ _
    refine (congrFun (Pay.row2_eq _ _ _ _ _ _) _).trans ?_
    refine (row_value m c t 2 s n).trans (Gblk_of m c t 2 s n _ ?_ ?_ ?_).symm
    · rfl
    · show 0 + 1 * s.val = s.val; omega
    · show 0 + 1 * n.val = n.val; omega
  · intro x
    obtain ⟨u, s, n, rfl⟩ : ∃ (u : Fin 1) (s : Fin 512) (n : Fin 7), x = ix3 u s n := ⟨x 0, x 1, x 2, eq_ix3 x⟩
    obtain rfl : u = 0 := Subsingleton.elim _ _
    refine (congrFun (Pay.row1_eq _ _ _ _ _ _) _).trans ?_
    refine (row_value m c t 1 s n).trans (Gblk_of m c t 1 s n _ ?_ ?_ ?_).symm
    · rfl
    · show 0 + 1 * s.val = s.val; omega
    · show 0 + 1 * n.val = n.val; omega
  · intro x
    obtain ⟨u, s, n, rfl⟩ : ∃ (u : Fin 1) (s : Fin 512) (n : Fin 7), x = ix3 u s n := ⟨x 0, x 1, x 2, eq_ix3 x⟩
    obtain rfl : u = 0 := Subsingleton.elim _ _
    refine (row_value m c t 0 s n).trans (Gblk_of m c t 0 s n _ ?_ ?_ ?_).symm
    · rfl
    · show 0 + 1 * s.val = s.val; omega
    · show 0 + 1 * n.val = n.val; omega

/-- WHAT POINT `t` WRITES BACK is block `t` of the result array. -/
theorem flushed_eq (c : Dev nD) (t : Fin cfg0.N) :
    (dats m 0 c).flushed 6 t = ((cfg0.win 6).blk t).view.read (Elt Ideal) (result m c) := by
  rw [Cert.KernelIdeal.Value.flushed6]
  obtain ⟨-, -, -, -, -, -, -, -, -, -, -, -, -, -, -, e0, e1, e2⟩ := idx_facts t
  funext y
  show out0_6 (F := Ideal) (iblk m c 0 t) (iblk m c 1 t) (iblk m c 2 t) (iblk m c 3 t) (iblk m c 4 t) (iblk m c 5 t)
      ((cfg0.win 6).xinj (grid0.coords t) y) = result m c (((cfg0.win 6).blk t).view.emb y)
  rw [out_apply]
  unfold Gblk
  congr 1
  funext a
  apply Fin.ext
  match a with
  | ⟨0, _⟩ => show 4 * t.val + (y 0).val = win0_6.index t (0 : Fin 3) * 4 + 1 * (y 0).val; rw [e0]; omega
  | ⟨1, _⟩ => show (y 1).val = win0_6.index t (1 : Fin 3) * 512 + 1 * (y 1).val; rw [e1]; omega
  | ⟨2, _⟩ => show (y 2).val = win0_6.index t (2 : Fin 3) * 7 + 1 * (y 2).val; rw [e2]; omega

/-- An index of the result array is in point `t`'s block iff each coordinate is in the block's range. -/
theorem mem_blk (t : Fin cfg0.N) (i : S64x512x7.Idx) :
    i ∈ ((cfg0.win 6).blk t).view.set ↔ ∀ a : Fin 3, win0_6.index t a * S4x512x7.size a ≤ (i a).val ∧ (i a).val < win0_6.index t a * S4x512x7.size a + S4x512x7.size a := by
  show i ∈ ((View.whole main_v13).slice (win0_6.rect t)).set ↔ _
  rw [View.set_slice_whole, Rect.mem_set_unit]
  exact Iff.rfl

/-- THE RESULT ARRAY after the run: the 16 blocks of four batch rows tile it. -/
theorem final (c : Dev nD) : (dats m 0 c).arrAt 6 cfg0.N = result m c :=
  (dats m 0 c).arrAt_eq_of_cover 6 (result m c) (fun t _ => flushed_eq m c t) fun i => by
    have hi0 : (i 0).val < 64 := (i 0).isLt
    have hi1 : (i 1).val < 512 := (i 1).isLt
    have hi2 : (i 2).val < 7 := (i 2).isLt
    refine ⟨⟨(i 0).val / 4, by rw [show cfg0.N = 16 from N_0]; omega⟩, flush0_6 _, ?_⟩
    obtain ⟨-, -, -, -, -, -, -, -, -, -, -, -, -, -, -, e0, e1, e2⟩ :=
      idx_facts ⟨(i 0).val / 4, by rw [show cfg0.N = 16 from N_0]; omega⟩
    rw [mem_blk]
    intro a
    match a with
    | ⟨0, _⟩ =>
      show win0_6.index _ (0 : Fin 3) * 4 ≤ (i 0).val ∧ (i 0).val < win0_6.index _ (0 : Fin 3) * 4 + 4
      rw [e0]; show (i 0).val / 4 * 4 ≤ (i 0).val ∧ (i 0).val < (i 0).val / 4 * 4 + 4; omega
    | ⟨1, _⟩ =>
      show win0_6.index _ (1 : Fin 3) * 512 ≤ (i 1).val ∧ (i 1).val < win0_6.index _ (1 : Fin 3) * 512 + 512
      rw [e1]; omega
    | ⟨2, _⟩ =>
      show win0_6.index _ (2 : Fin 3) * 7 ≤ (i 2).val ∧ (i 2).val < win0_6.index _ (2 : Fin 3) * 7 + 7
      rw [e2]; omega

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩)
    (Cert.KernelIdeal.Value.run_blocks m ρ)

end Cert.KernelIdeal.KValue

end
-- ==== Proof.RefTerm.lean ====
/-
  The reference's result as one term of its arguments, named stage by stage: the running count of the validity
  words along a row, the slot of each token (count minus one where the word is one, the overflow slot 512 elsewhere),
  the two-component scatter index (batch row, slot), the compacted first feature block (a scatter into 513 zero rows,
  the overflow row cut off), the two feature blocks side by side, and their product with the weight plus the bias.
-/
import proofs.«403301_j84507776516624_3_alg».proof.Proof.Gen.ReferenceIdeal

noncomputable section

namespace Cert.ReferenceIdeal.RefTerm

open Cert.ReferenceIdeal Idealize.ShloMosaic
open Cert.ReferenceIdeal.Facts₀

variable {F : FTy → Type} [FloatOps F]

/-- The running count of the words along each row. -/
def cumT (v : IVec S64x512 32) : IVec S64x512 32 :=
  Host.reduceWindow IntOp.addi ![1, 512] ![1, 1] ![0, 511] ![0, 0] v
    (broadcastInDim S_ ![] bcast_S_S_ (constantI S_ 32 0#32))
    reduceWindows_S64x512_S64x512_w1s1p0_0_w512s1p511_0 h_S_

/-- The slot of each token. -/
def posT (v : IVec S64x512 32) : IVec S64x512 32 :=
  select (cmpi .eq v (broadcastInDim S64x512 ![] bcast_S_S64x512 (constantI S_ 32 1#32)))
    (subi (cumT v) (broadcastInDim S64x512 ![] bcast_S_S64x512 (constantI S_ 32 1#32)))
    (broadcastInDim S64x512 ![] bcast_S_S64x512 (id (constantI S_ 32 512#32)))

/-- The batch row of each token, as a column (negative values wrapped, which never happens). -/
def rowT : IVec S64x1 32 :=
  select (cmpi .slt (broadcastInDim S64x1 ![0] bcast_S64_S64x1_0 (iotaInDim S64 32 0))
      (broadcastInDim S64x1 ![] bcast_S_S64x1 (constantI S_ 32 0#32)))
    (addi (broadcastInDim S64x1 ![0] bcast_S64_S64x1_0 (iotaInDim S64 32 0))
      (broadcastInDim S64x1 ![] bcast_S_S64x1 (constantI S_ 32 64#32)))
    (broadcastInDim S64x1 ![0] bcast_S64_S64x1_0 (iotaInDim S64 32 0))

/-- The slot with negative values wrapped by 513. -/
def colT (v : IVec S64x512 32) : IVec S64x512 32 :=
  select (cmpi .slt (posT v) (broadcastInDim S64x512 ![] bcast_S_S64x512 (constantI S_ 32 0#32)))
    (addi (posT v) (broadcastInDim S64x512 ![] bcast_S_S64x512 (constantI S_ 32 513#32)))
    (posT v)

/-- The scatter indices: (batch row, slot) for each token. -/
def idxT (v : IVec S64x512 32) : IVec S64x512x2 32 :=
  concatenate S64x512x2 2
    [⟨S64x512x1, broadcastInDim S64x512x1 ![0, 1] bcast_S64x512_S64x512x1_0_1
        (broadcastInDim S64x512 ![0, 1] bcast_S64x1_S64x512_0_1 rowT)⟩,
     ⟨S64x512x1, broadcastInDim S64x512x1 ![0, 1] bcast_S64x512_S64x512x1_0_1 (colT v)⟩]
    concatenates_S64x512x1_S64x512x1_S64x512x2_d2

/-- The first feature block scattered into 513 zero rows per batch row. -/
def scatT (x0 : FVec F S64x512x768 .f32) (v : IVec S64x512 32) : FVec F S64x513x768 .f32 :=
  Host.scatter scatter_S64x513x768_S64x512x2_S64x512x768_2_01_01_2 (fun _ b => b)
    (broadcastInDim S64x513x768 ![] bcast_S_S64x513x768 (constant S_ .f32 0x00000000#32)) (idxT v) x0

/-- The compacted first block beside the second. -/
def combT (x0 : FVec F S64x512x768 .f32) (x1 : FVec F S64x512x1024 .f32) (v : IVec S64x512 32) : FVec F S64x512x1792 .f32 :=
  concatenate S64x512x1792 2
    [⟨S64x512x768, extractStridedSlice S64x512x768 ![0, 0, 0] (scatT x0 v) slices_S64x513x768_S64x512x768_0_0_0⟩,
     ⟨S64x512x1024, x1⟩]
    concatenates_S64x512x768_S64x512x1024_S64x512x1792_d2

/-- The reference's result. -/
def outT (x0 : FVec F S64x512x768 .f32) (x1 : FVec F S64x512x1024 .f32) (v : IVec S64x512 32)
    (w : FVec F S1792x7 .f32) (bias : FVec F S7 .f32) : FVec F S64x512x7 .f32 :=
  addf (Host.dotGeneral dot_S64x512x1792_S1792x7_S64x512x7_2_0_01_1_n_n none (combT x0 x1 v) w)
    (broadcastInDim S64x512x7 ![0, 1, 2] bcast_S1x1x7_S64x512x7_0_1_2 (broadcastInDim S1x1x7 ![2] bcast_S7_S1x1x7_2 bias))

end Cert.ReferenceIdeal.RefTerm

end
-- ==== Proof.RefRun.lean ====
/-
  The reference program's run: its @main is a straight line of host operations (the outlined functions'
  operations taken at their call sites), so every weakly fair execution terminates with the result buffer at the
  operations' composed term of the arguments — the staged term of RefTerm — and the arguments unchanged.
-/
import proofs.«403301_j84507776516624_3_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's 42 operations in order, the calls unfolded: the running count's three (the zero, its rank-zero broadcast,
    the windowed sum) into the buffers of the call nested in @cumsum's; `_where`'s three (the overflow slot converted
    to its own type, broadcast, the select) into its call's; around them @main's own thirty-six. -/
abbrev ops : List (HloOp τ sig (Elt F)) :=
  [ TRef.nullary main_call0.call0.c (constantI S_ 32 0#32),
    TRef.unary main_call0.call0.c main_call0.call0.v0 (broadcastInDim S_ ![] bcast_S_S_),
    TRef.binary (.of main_arg2) main_call0.call0.v0 main_call0.call0.v1 (fun x v => Host.reduceWindow IntOp.addi ![1, 512] ![1, 1] ![0, 511] ![0, 0] x v reduceWindows_S64x512_S64x512_w1s1p0_0_w512s1p511_0 h_S_),
    nullary main_c (constantI S_ 32 1#32),
    unary main_c main_v1 (broadcastInDim S64x512 ![] bcast_S_S64x512 : (⟨S_, .i32⟩ : BufTy).Contents (Elt F) → (⟨S64x512, .i32⟩ : BufTy).Contents (Elt F)),
    binary main_v0 main_v1 main_v2 (subi : (⟨S64x512, .i32⟩ : BufTy).Contents (Elt F) → (⟨S64x512, .i32⟩ : BufTy).Contents (Elt F) → (⟨S64x512, .i32⟩ : BufTy).Contents (Elt F)),
    nullary main_c_0 (constantI S_ 32 1#32),
    unary main_c_0 main_v3 (broadcastInDim S64x512 ![] bcast_S_S64x512 : (⟨S_, .i32⟩ : BufTy).Contents (Elt F) → (⟨S64x512, .i32⟩ : BufTy).Contents (Elt F)),
    binary main_arg2 main_v3 main_v4 (cmpi .eq : (⟨S64x512, .i32⟩ : BufTy).Contents (Elt F) → (⟨S64x512, .i32⟩ : BufTy).Contents (Elt F) → (⟨S64x512, .i1⟩ : BufTy).Contents (Elt F)),
    nullary main_c_1 (constantI S_ 32 512#32),
    TRef.unary (.of main_c_1) main_call1.v0 id,
    TRef.unary main_call1.v0 main_call1.v1 (broadcastInDim S64x512 ![] bcast_S_S64x512),
    TRef.ternary (.of main_v4) (.of main_v2) main_call1.v1 main_call1.v2 select,
    nullary main_v6 (iotaInDim S64 32 0),
    unary main_v6 main_v7 (broadcastInDim S64x1 ![0] bcast_S64_S64x1_0 : (⟨S64, .i32⟩ : BufTy).Contents (Elt F) → (⟨S64x1, .i32⟩ : BufTy).Contents (Elt F)),
    nullary main_cst (constant S_ .f32 0x00000000#32),
    unary main_cst main_v8 (broadcastInDim S64x513x768 ![] bcast_S_S64x513x768 : (⟨S_, .f32⟩ : BufTy).Contents (Elt F) → (⟨S64x513x768, .f32⟩ : BufTy).Contents (Elt F)),
    nullary main_c_2 (constantI S_ 32 0#32),
    unary main_c_2 main_v9 (broadcastInDim S64x1 ![] bcast_S_S64x1 : (⟨S_, .i32⟩ : BufTy).Contents (Elt F) → (⟨S64x1, .i32⟩ : BufTy).Contents (Elt F)),
    binary main_v7 main_v9 main_v10 (cmpi .slt : (⟨S64x1, .i32⟩ : BufTy).Contents (Elt F) → (⟨S64x1, .i32⟩ : BufTy).Contents (Elt F) → (⟨S64x1, .i1⟩ : BufTy).Contents (Elt F)),
    nullary main_c_3 (constantI S_ 32 64#32),
    unary main_c_3 main_v11 (broadcastInDim S64x1 ![] bcast_S_S64x1 : (⟨S_, .i32⟩ : BufTy).Contents (Elt F) → (⟨S64x1, .i32⟩ : BufTy).Contents (Elt F)),
    binary main_v7 main_v11 main_v12 (addi : (⟨S64x1, .i32⟩ : BufTy).Contents (Elt F) → (⟨S64x1, .i32⟩ : BufTy).Contents (Elt F) → (⟨S64x1, .i32⟩ : BufTy).Contents (Elt F)),
    ternary main_v10 main_v12 main_v7 main_v13 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_4 (constantI S_ 32 0#32),
    unary main_c_4 main_v14 (broadcastInDim S64x512 ![] bcast_S_S64x512 : (⟨S_, .i32⟩ : BufTy).Contents (Elt F) → (⟨S64x512, .i32⟩ : BufTy).Contents (Elt F)),
    binary main_v5 main_v14 main_v15 (cmpi .slt : (⟨S64x512, .i32⟩ : BufTy).Contents (Elt F) → (⟨S64x512, .i32⟩ : BufTy).Contents (Elt F) → (⟨S64x512, .i1⟩ : BufTy).Contents (Elt F)),
    nullary main_c_5 (constantI S_ 32 513#32),
    unary main_c_5 main_v16 (broadcastInDim S64x512 ![] bcast_S_S64x512 : (⟨S_, .i32⟩ : BufTy).Contents (Elt F) → (⟨S64x512, .i32⟩ : BufTy).Contents (Elt F)),
    binary main_v5 main_v16 main_v17 (addi : (⟨S64x512, .i32⟩ : BufTy).Contents (Elt F) → (⟨S64x512, .i32⟩ : BufTy).Contents (Elt F) → (⟨S64x512, .i32⟩ : BufTy).Contents (Elt F)),
    ternary main_v15 main_v17 main_v5 main_v18 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    unary main_v13 main_v19 (broadcastInDim S64x512 ![0, 1] bcast_S64x1_S64x512_0_1 : (⟨S64x1, .i32⟩ : BufTy).Contents (Elt F) → (⟨S64x512, .i32⟩ : BufTy).Contents (Elt F)),
    unary main_v19 main_v20 (broadcastInDim S64x512x1 ![0, 1] bcast_S64x512_S64x512x1_0_1 : (⟨S64x512, .i32⟩ : BufTy).Contents (Elt F) → (⟨S64x512x1, .i32⟩ : BufTy).Contents (Elt F)),
    unary main_v18 main_v21 (broadcastInDim S64x512x1 ![0, 1] bcast_S64x512_S64x512x1_0_1 : (⟨S64x512, .i32⟩ : BufTy).Contents (Elt F) → (⟨S64x512x1, .i32⟩ : BufTy).Contents (Elt F)),
    binary main_v20 main_v21 main_v22 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
    ternary main_v8 main_v22 main_arg0 main_v23 ((fun x i u => Host.scatter scatter_S64x513x768_S64x512x2_S64x512x768_2_01_01_2 (fun _ b => b) x i u) : (⟨S64x513x768, .f32⟩ : BufTy).Contents (Elt F) → (⟨S64x512x2, .i32⟩ : BufTy).Contents (Elt F) → (⟨S64x512x768, .f32⟩ : BufTy).Contents (Elt F) → (⟨S64x513x768, .f32⟩ : BufTy).Contents (Elt F)),
    unary main_v23 main_v24 ((extractStridedSlice S64x512x768 ![0, 0, 0] · slices_S64x513x768_S64x512x768_0_0_0) : (⟨S64x513x768, .f32⟩ : BufTy).Contents (Elt F) → (⟨S64x512x768, .f32⟩ : BufTy).Contents (Elt F)),
    binary main_v24 main_arg1 main_v25 ((fun a b => concatenate S64x512x1792 2 [⟨S64x512x768, a⟩, ⟨S64x512x1024, b⟩] concatenates_S64x512x768_S64x512x1024_S64x512x1792_d2) : (⟨S64x512x768, .f32⟩ : BufTy).Contents (Elt F) → (⟨S64x512x1024, .f32⟩ : BufTy).Contents (Elt F) → (⟨S64x512x1792, .f32⟩ : BufTy).Contents (Elt F)),
    binary main_v25 main_arg3 main_v26 ((fun l r => Host.dotGeneral dot_S64x512x1792_S1792x7_S64x512x7_2_0_01_1_n_n none l r) : (⟨S64x512x1792, .f32⟩ : BufTy).Contents (Elt F) → (⟨S1792x7, .f32⟩ : BufTy).Contents (Elt F) → (⟨S64x512x7, .f32⟩ : BufTy).Contents (Elt F)),
    unary main_arg4 main_v27 (broadcastInDim S1x1x7 ![2] bcast_S7_S1x1x7_2 : (⟨S7, .f32⟩ : BufTy).Contents (Elt F) → (⟨S1x1x7, .f32⟩ : BufTy).Contents (Elt F)),
    unary main_v27 main_v28 (broadcastInDim S64x512x7 ![0, 1, 2] bcast_S1x1x7_S64x512x7_0_1_2 : (⟨S1x1x7, .f32⟩ : BufTy).Contents (Elt F) → (⟨S64x512x7, .f32⟩ : BufTy).Contents (Elt F)),
    binary main_v26 main_v28 main_v29 (addf : (⟨S64x512x7, .f32⟩ : BufTy).Contents (Elt F) → (⟨S64x512x7, .f32⟩ : BufTy).Contents (Elt F) → (⟨S64x512x7, .f32⟩ : BufTy).Contents (Elt F)) ]

-- forty-two binds re-associated: the rewrite under the chain recurses once per statement
set_option maxRecDepth 1024 in
/-- @main is that straight line: the functions' definitions unfolded at their calls and the records at their fields,
    both sides are one chain of steps once sequencing is reassociated. -/
theorem main_eq (c : Dev nD) : main (F := F) c = seq ops := by
  simp only [main, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., ternary_bufs_sub ..,
    unary_bufs_sub .., binary_bufs_sub .., binary_bufs_sub .., unary_bufs_sub .., unary_bufs_sub .., binary_bufs_sub ..⟩

/-! ## The fold at the result buffer, in two stages

The slot of a token is read three times (the sign test, the wrapped value, the value itself) and so is the batch
row, so the fold at the result is computed in two stages: the first thirty-four operations, which end at the two
components of the scatter index, and the last eight, which assemble the index, scatter, cut, concatenate, multiply
and add the bias. -/

/-- The fold over a concatenation is the fold over the second list from the fold over the first. -/
private theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first thirty-four operations: up to the two components of the scatter index. -/
abbrev opsA : List (HloOp τ sig (Elt F)) :=
  [ TRef.nullary main_call0.call0.c (constantI S_ 32 0#32),
    TRef.unary main_call0.call0.c main_call0.call0.v0 (broadcastInDim S_ ![] bcast_S_S_),
    TRef.binary (.of main_arg2) main_call0.call0.v0 main_call0.call0.v1 (fun x v => Host.reduceWindow IntOp.addi ![1, 512] ![1, 1] ![0, 511] ![0, 0] x v reduceWindows_S64x512_S64x512_w1s1p0_0_w512s1p511_0 h_S_),
    nullary main_c (constantI S_ 32 1#32),
    unary main_c main_v1 (broadcastInDim S64x512 ![] bcast_S_S64x512 : (⟨S_, .i32⟩ : BufTy).Contents (Elt F) → (⟨S64x512, .i32⟩ : BufTy).Contents (Elt F)),
    binary main_v0 main_v1 main_v2 (subi : (⟨S64x512, .i32⟩ : BufTy).Contents (Elt F) → (⟨S64x512, .i32⟩ : BufTy).Contents (Elt F) → (⟨S64x512, .i32⟩ : BufTy).Contents (Elt F)),
    nullary main_c_0 (constantI S_ 32 1#32),
    unary main_c_0 main_v3 (broadcastInDim S64x512 ![] bcast_S_S64x512 : (⟨S_, .i32⟩ : BufTy).Contents (Elt F) → (⟨S64x512, .i32⟩ : BufTy).Contents (Elt F)),
    binary main_arg2 main_v3 main_v4 (cmpi .eq : (⟨S64x512, .i32⟩ : BufTy).Contents (Elt F) → (⟨S64x512, .i32⟩ : BufTy).Contents (Elt F) → (⟨S64x512, .i1⟩ : BufTy).Contents (Elt F)),
    nullary main_c_1 (constantI S_ 32 512#32),
    TRef.unary (.of main_c_1) main_call1.v0 id,
    TRef.unary main_call1.v0 main_call1.v1 (broadcastInDim S64x512 ![] bcast_S_S64x512),
    TRef.ternary (.of main_v4) (.of main_v2) main_call1.v1 main_call1.v2 select,
    nullary main_v6 (iotaInDim S64 32 0),
    unary main_v6 main_v7 (broadcastInDim S64x1 ![0] bcast_S64_S64x1_0 : (⟨S64, .i32⟩ : BufTy).Contents (Elt F) → (⟨S64x1, .i32⟩ : BufTy).Contents (Elt F)),
    nullary main_cst (constant S_ .f32 0x00000000#32),
    unary main_cst main_v8 (broadcastInDim S64x513x768 ![] bcast_S_S64x513x768 : (⟨S_, .f32⟩ : BufTy).Contents (Elt F) → (⟨S64x513x768, .f32⟩ : BufTy).Contents (Elt F)),
    nullary main_c_2 (constantI S_ 32 0#32),
    unary main_c_2 main_v9 (broadcastInDim S64x1 ![] bcast_S_S64x1 : (⟨S_, .i32⟩ : BufTy).Contents (Elt F) → (⟨S64x1, .i32⟩ : BufTy).Contents (Elt F)),
    binary main_v7 main_v9 main_v10 (cmpi .slt : (⟨S64x1, .i32⟩ : BufTy).Contents (Elt F) → (⟨S64x1, .i32⟩ : BufTy).Contents (Elt F) → (⟨S64x1, .i1⟩ : BufTy).Contents (Elt F)),
    nullary main_c_3 (constantI S_ 32 64#32),
    unary main_c_3 main_v11 (broadcastInDim S64x1 ![] bcast_S_S64x1 : (⟨S_, .i32⟩ : BufTy).Contents (Elt F) → (⟨S64x1, .i32⟩ : BufTy).Contents (Elt F)),
    binary main_v7 main_v11 main_v12 (addi : (⟨S64x1, .i32⟩ : BufTy).Contents (Elt F) → (⟨S64x1, .i32⟩ : BufTy).Contents (Elt F) → (⟨S64x1, .i32⟩ : BufTy).Contents (Elt F)),
    ternary main_v10 main_v12 main_v7 main_v13 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_4 (constantI S_ 32 0#32),
    unary main_c_4 main_v14 (broadcastInDim S64x512 ![] bcast_S_S64x512 : (⟨S_, .i32⟩ : BufTy).Contents (Elt F) → (⟨S64x512, .i32⟩ : BufTy).Contents (Elt F)),
    binary main_v5 main_v14 main_v15 (cmpi .slt : (⟨S64x512, .i32⟩ : BufTy).Contents (Elt F) → (⟨S64x512, .i32⟩ : BufTy).Contents (Elt F) → (⟨S64x512, .i1⟩ : BufTy).Contents (Elt F)),
    nullary main_c_5 (constantI S_ 32 513#32),
    unary main_c_5 main_v16 (broadcastInDim S64x512 ![] bcast_S_S64x512 : (⟨S_, .i32⟩ : BufTy).Contents (Elt F) → (⟨S64x512, .i32⟩ : BufTy).Contents (Elt F)),
    binary main_v5 main_v16 main_v17 (addi : (⟨S64x512, .i32⟩ : BufTy).Contents (Elt F) → (⟨S64x512, .i32⟩ : BufTy).Contents (Elt F) → (⟨S64x512, .i32⟩ : BufTy).Contents (Elt F)),
    ternary main_v15 main_v17 main_v5 main_v18 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    unary main_v13 main_v19 (broadcastInDim S64x512 ![0, 1] bcast_S64x1_S64x512_0_1 : (⟨S64x1, .i32⟩ : BufTy).Contents (Elt F) → (⟨S64x512, .i32⟩ : BufTy).Contents (Elt F)),
    unary main_v19 main_v20 (broadcastInDim S64x512x1 ![0, 1] bcast_S64x512_S64x512x1_0_1 : (⟨S64x512, .i32⟩ : BufTy).Contents (Elt F) → (⟨S64x512x1, .i32⟩ : BufTy).Contents (Elt F)),
    unary main_v18 main_v21 (broadcastInDim S64x512x1 ![0, 1] bcast_S64x512_S64x512x1_0_1 : (⟨S64x512, .i32⟩ : BufTy).Contents (Elt F) → (⟨S64x512x1, .i32⟩ : BufTy).Contents (Elt F)) ]

/-- The last eight: the index's concatenation, the scatter, the slice, the blocks' concatenation, the product, the
    bias's two broadcasts, the sum. -/
abbrev opsB : List (HloOp τ sig (Elt F)) :=
  [ binary main_v20 main_v21 main_v22 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
    ternary main_v8 main_v22 main_arg0 main_v23 ((fun x i u => Host.scatter scatter_S64x513x768_S64x512x2_S64x512x768_2_01_01_2 (fun _ b => b) x i u) : (⟨S64x513x768, .f32⟩ : BufTy).Contents (Elt F) → (⟨S64x512x2, .i32⟩ : BufTy).Contents (Elt F) → (⟨S64x512x768, .f32⟩ : BufTy).Contents (Elt F) → (⟨S64x513x768, .f32⟩ : BufTy).Contents (Elt F)),
    unary main_v23 main_v24 ((extractStridedSlice S64x512x768 ![0, 0, 0] · slices_S64x513x768_S64x512x768_0_0_0) : (⟨S64x513x768, .f32⟩ : BufTy).Contents (Elt F) → (⟨S64x512x768, .f32⟩ : BufTy).Contents (Elt F)),
    binary main_v24 main_arg1 main_v25 ((fun a b => concatenate S64x512x1792 2 [⟨S64x512x768, a⟩, ⟨S64x512x1024, b⟩] concatenates_S64x512x768_S64x512x1024_S64x512x1792_d2) : (⟨S64x512x768, .f32⟩ : BufTy).Contents (Elt F) → (⟨S64x512x1024, .f32⟩ : BufTy).Contents (Elt F) → (⟨S64x512x1792, .f32⟩ : BufTy).Contents (Elt F)),
    binary main_v25 main_arg3 main_v26 ((fun l r => Host.dotGeneral dot_S64x512x1792_S1792x7_S64x512x7_2_0_01_1_n_n none l r) : (⟨S64x512x1792, .f32⟩ : BufTy).Contents (Elt F) → (⟨S1792x7, .f32⟩ : BufTy).Contents (Elt F) → (⟨S64x512x7, .f32⟩ : BufTy).Contents (Elt F)),
    unary main_arg4 main_v27 (broadcastInDim S1x1x7 ![2] bcast_S7_S1x1x7_2 : (⟨S7, .f32⟩ : BufTy).Contents (Elt F) → (⟨S1x1x7, .f32⟩ : BufTy).Contents (Elt F)),
    unary main_v27 main_v28 (broadcastInDim S64x512x7 ![0, 1, 2] bcast_S1x1x7_S64x512x7_0_1_2 : (⟨S1x1x7, .f32⟩ : BufTy).Contents (Elt F) → (⟨S64x512x7, .f32⟩ : BufTy).Contents (Elt F)),
    binary main_v26 main_v28 main_v29 (addf : (⟨S64x512x7, .f32⟩ : BufTy).Contents (Elt F) → (⟨S64x512x7, .f32⟩ : BufTy).Contents (Elt F) → (⟨S64x512x7, .f32⟩ : BufTy).Contents (Elt F)) ]

theorem ops_split : (ops : List (HloOp τ sig (Elt F))) = opsA ++ opsB := rfl

/-- The last eight from any contents `W`: the result as a term of `W` at the three computed buffers they read (the
    zero rows, the two index components) and at the arguments. -/
theorem tail_eq (W : Valuation τ sig (Elt F)) :
    after opsB W (main_v29 : DevRef τ sig)
      = addf (Host.dotGeneral dot_S64x512x1792_S1792x7_S64x512x7_2_0_01_1_n_n none
          (concatenate S64x512x1792 2
            [⟨S64x512x768, extractStridedSlice S64x512x768 ![0, 0, 0]
                (Host.scatter scatter_S64x513x768_S64x512x2_S64x512x768_2_01_01_2 (fun _ b => b) (W (main_v8 : DevRef τ sig))
                  (concatenate S64x512x2 2 [⟨S64x512x1, W (main_v20 : DevRef τ sig)⟩, ⟨S64x512x1, W (main_v21 : DevRef τ sig)⟩]
                    concatenates_S64x512x1_S64x512x1_S64x512x2_d2) (W (main_arg0 : DevRef τ sig)))
                slices_S64x513x768_S64x512x768_0_0_0⟩,
             ⟨S64x512x1024, W (main_arg1 : DevRef τ sig)⟩]
            concatenates_S64x512x768_S64x512x1024_S64x512x1792_d2) (W (main_arg3 : DevRef τ sig)))
          (broadcastInDim S64x512x7 ![0, 1, 2] bcast_S1x1x7_S64x512x7_0_1_2
            (broadcastInDim S1x1x7 ![2] bcast_S7_S1x1x7_2 (W (main_arg4 : DevRef τ sig)))) := by
  after_results

/-- After the first thirty-four, the scatter's operand is the 513 zero rows. -/
theorem head_v8 (V : Valuation τ sig (Elt F)) :
    after opsA V (main_v8 : DevRef τ sig)
      = broadcastInDim S64x513x768 ![] bcast_S_S64x513x768 (constant S_ .f32 0x00000000#32) := by
  after_results_simp

/-- After the first thirty-four, the index's first component is the batch row. -/
theorem head_v20 (V : Valuation τ sig (Elt F)) :
    after opsA V (main_v20 : DevRef τ sig)
      = broadcastInDim S64x512x1 ![0, 1] bcast_S64x512_S64x512x1_0_1
          (broadcastInDim S64x512 ![0, 1] bcast_S64x1_S64x512_0_1 RefTerm.rowT) := by
  after_results_simp
  rfl

/-- After the first thirty-four, the index's second component is the wrapped slot of the validity words: the typed
    references' transports are the identity at these literal references. -/
theorem head_v21 (V : Valuation τ sig (Elt F)) :
    after opsA V (main_v21 : DevRef τ sig)
      = broadcastInDim S64x512x1 ![0, 1] bcast_S64x512_S64x512x1_0_1 (RefTerm.colT (V (main_arg2 : DevRef τ sig))) := by
  after_results_simp
  simp only [TRef.toBuf, TRef.ofBuf, cast_eq]
  unfold RefTerm.colT RefTerm.posT RefTerm.cumT
  rfl

/-- The first thirty-four write no argument. -/
theorem head_arg0 (V : Valuation τ sig (Elt F)) : after opsA V (main_arg0 : DevRef τ sig) = V (main_arg0 : DevRef τ sig) := by
  after_results_simp
theorem head_arg1 (V : Valuation τ sig (Elt F)) : after opsA V (main_arg1 : DevRef τ sig) = V (main_arg1 : DevRef τ sig) := by
  after_results_simp
theorem head_arg3 (V : Valuation τ sig (Elt F)) : after opsA V (main_arg3 : DevRef τ sig) = V (main_arg3 : DevRef τ sig) := by
  after_results_simp
theorem head_arg4 (V : Valuation τ sig (Elt F)) : after opsA V (main_arg4 : DevRef τ sig) = V (main_arg4 : DevRef τ sig) := by
  after_results_simp

/-- The fold at the result buffer is the staged term of the arguments: the two stages composed, the stages' names
    unfolded. -/
theorem out_eq (V : Valuation τ sig (Elt F)) :
    after ops V (main_v29 : DevRef τ sig)
      = RefTerm.outT (V (main_arg0 : DevRef τ sig)) (V (main_arg1 : DevRef τ sig)) (V (main_arg2 : DevRef τ sig))
          (V (main_arg3 : DevRef τ sig)) (V (main_arg4 : DevRef τ sig)) := by
  rw [ops_split, after_append, tail_eq, head_v8, head_v20, head_v21, head_arg0, head_arg1, head_arg3, head_arg4]
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, from any memory with zero counters: every weakly fair execution of @main terminates with the
    result at the staged term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = RefTerm.outT (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.LibScatter.lean ====
/-
  A scatter whose body keeps the update ("set"), read at one index of the operand.

  The scatter is a left fold over the update indices in row-major order: each update whose landing index is inside
  the operand replaces the element there.  Hence at an operand index `i`: if no update lands on `i` the operand's
  element survives, and if exactly one update lands on `i` the result is that update.  Then the same for the
  scatter of a `[64, 512, 768]` block of rows into a `[64, 513, 768]` operand at (batch row, slot) index pairs.
-/
import Idealize.ShloMosaic.PureOps.ShapeOps
import Idealize.ShloMosaic.PureOps.Dims
import Idealize.ShloMosaic.Lib.ValueIdx

noncomputable section

namespace Cert.LibScatter

open Idealize.ShloMosaic Idealize.ShloMosaic.ValueIdx

/-- The scatter's fold over a list of update numbers, read at an index none of them lands on: the accumulator's
    element survives. -/
private theorem foldl_set_miss {s si u : Shape} {w : Nat} {α : Type} (d : ScatterDims s si u) (idx : IVec si w)
    (upd : u.Idx → α) (i : s.Idx) :
    ∀ (l : List (Fin u.numel)) (acc : s.Idx → α), (∀ n ∈ l, d.resultIdx? (u.rowMajor.symm n) idx ≠ some i) →
      l.foldl (fun r n => match d.resultIdx? (u.rowMajor.symm n) idx with
        | some k => fun i' => if i' = k then upd (u.rowMajor.symm n) else r i'
        | none => r) acc i = acc i := by
  intro l
  induction l with
  | nil => intro acc _; rfl
  | cons a t ih =>
    intro acc h
    rw [List.foldl_cons, ih _ (fun n hn => h n (List.mem_cons_of_mem _ hn))]
    have ha := h a (List.mem_cons_self ..)
    cases hg : d.resultIdx? (u.rowMajor.symm a) idx with
    | none => rfl
    | some k =>
      have hik : i ≠ k := fun e => ha (by rw [hg, e])
      simp only [if_neg hik]

/-- The scatter's fold over a list of update numbers without repeats, read at an index exactly one update
    lands on: that update. -/
private theorem foldl_set_hit {s si u : Shape} {w : Nat} {α : Type} (d : ScatterDims s si u) (idx : IVec si w)
    (upd : u.Idx → α) (i : s.Idx) (j₀ : u.Idx) (h₀ : d.resultIdx? j₀ idx = some i)
    (h : ∀ j : u.Idx, d.resultIdx? j idx = some i → j = j₀) :
    ∀ (l : List (Fin u.numel)) (acc : s.Idx → α), l.Nodup → u.rowMajor j₀ ∈ l →
      l.foldl (fun r n => match d.resultIdx? (u.rowMajor.symm n) idx with
        | some k => fun i' => if i' = k then upd (u.rowMajor.symm n) else r i'
        | none => r) acc i = upd j₀ := by
  intro l
  induction l with
  | nil => intro acc _ hm; exact absurd hm (List.not_mem_nil)
  | cons a t ih =>
    intro acc hnd hm
    rw [List.foldl_cons]
    rw [List.nodup_cons] at hnd
    by_cases hane : a = u.rowMajor j₀
    · subst hane
      have hmiss : ∀ n ∈ t, d.resultIdx? (u.rowMajor.symm n) idx ≠ some i := by
        intro n hn e
        have := h _ e
        apply hnd.1
        rw [← this, Equiv.apply_symm_apply]
        exact hn
      rw [foldl_set_miss d idx upd i t _ hmiss]
      simp only [Equiv.symm_apply_apply, h₀, if_true]
    · have hm' : u.rowMajor j₀ ∈ t := by
        rcases List.mem_cons.1 hm with e | e
        · exact absurd e.symm hane
        · exact e
      exact ih _ hnd.2 hm'

/-- No update lands on `i`: the operand's element survives. -/
theorem scatter_set_of_forall_ne {s si u : Shape} {w : Nat} {α : Type} (d : ScatterDims s si u) (x : s.Idx → α)
    (idx : IVec si w) (upd : u.Idx → α) (i : s.Idx) (h : ∀ j : u.Idx, d.resultIdx? j idx ≠ some i) :
    Host.scatter d (fun _ b => b) x idx upd i = x i :=
  foldl_set_miss d idx upd i _ x (fun n _ => h _)

/-- Exactly one update, `j₀`, lands on `i`: the result there is that update. -/
theorem scatter_set_of_unique {s si u : Shape} {w : Nat} {α : Type} (d : ScatterDims s si u) (x : s.Idx → α)
    (idx : IVec si w) (upd : u.Idx → α) (i : s.Idx) (j₀ : u.Idx) (h₀ : d.resultIdx? j₀ idx = some i)
    (h : ∀ j : u.Idx, d.resultIdx? j idx = some i → j = j₀) :
    Host.scatter d (fun _ b => b) x idx upd i = upd j₀ :=
  foldl_set_hit d idx upd i j₀ h₀ h _ x (List.nodup_finRange _) (List.mem_finRange _)

/-- Rows of 768 scattered at (batch row, slot) pairs into 513 slots per batch row. -/
def rowScat : ScatterDims ⟨3, ![64, 513, 768]⟩ ⟨3, ![64, 512, 2]⟩ ⟨3, ![64, 512, 768]⟩ where
  updateWindowDims := [2]
  insertedWindowDims := [0, 1]
  scatterDimsToOperandDims := [0, 1]
  indexVectorDim := 2

/-- The scatter-indices index at which the update at `(b, j, h)` reads component `c` of its start: `(b, j, c)`. -/
private theorem rs_siIdx0 (b : Fin 64) (j : Fin 512) (h : Fin 768) (c : Fin 2) (hc : c.val < rowScat.scatterDimsToOperandDims.length) :
    rowScat.siIdx (ix3 b j h) ⟨c.val, hc⟩ = ix3 b j c := by
  funext a
  match a with
  | ⟨0, _⟩ => rfl
  | ⟨1, _⟩ => rfl
  | ⟨2, _⟩ => rfl

/-- The window's start on the batch-row axis is the first index component. -/
private theorem rs_start0 (idx : IVec ⟨3, ![64, 512, 2]⟩ 32) (b : Fin 64) (j : Fin 512) (h : Fin 768) (h0 : 0 < 3) :
    rowScat.start (ix3 b j h) idx ⟨0, h0⟩ = (idx (ix3 b j (0 : Fin 2))).toInt := by
  unfold ScatterDims.start
  rw [dif_pos (by decide +revert)]
  exact congrArg (fun k => (idx k).toInt) (rs_siIdx0 b j h 0 (by decide))

/-- The window's start on the slot axis is the second index component. -/
private theorem rs_start1 (idx : IVec ⟨3, ![64, 512, 2]⟩ 32) (b : Fin 64) (j : Fin 512) (h : Fin 768) (h0 : 1 < 3) :
    rowScat.start (ix3 b j h) idx ⟨1, h0⟩ = (idx (ix3 b j (1 : Fin 2))).toInt := by
  unfold ScatterDims.start
  rw [dif_pos (by decide +revert)]
  exact congrArg (fun k => (idx k).toInt) (rs_siIdx0 b j h 1 (by decide))

/-- The window's start on the column axis is zero. -/
private theorem rs_start2 (idx : IVec ⟨3, ![64, 512, 2]⟩ 32) (b : Fin 64) (j : Fin 512) (h : Fin 768) (h0 : 2 < 3) :
    rowScat.start (ix3 b j h) idx ⟨2, h0⟩ = 0 := by
  unfold ScatterDims.start
  rw [dif_neg (by decide +revert)]

/-- The window coordinate on the batch-row axis (inserted) is zero. -/
private theorem rs_window0 (b : Fin 64) (j : Fin 512) (h : Fin 768) (h0 : 0 < 3) :
    rowScat.window (ix3 b j h) ⟨0, h0⟩ = 0 := by
  unfold ScatterDims.window
  rw [dif_neg (by decide +revert)]

/-- The window coordinate on the slot axis (inserted) is zero. -/
private theorem rs_window1 (b : Fin 64) (j : Fin 512) (h : Fin 768) (h0 : 1 < 3) :
    rowScat.window (ix3 b j h) ⟨1, h0⟩ = 0 := by
  unfold ScatterDims.window
  rw [dif_neg (by decide +revert)]

/-- The window coordinate on the column axis is the update's column. -/
private theorem rs_window2 (b : Fin 64) (j : Fin 512) (h : Fin 768) (h0 : 2 < 3) :
    rowScat.window (ix3 b j h) ⟨2, h0⟩ = h.val := by
  unfold ScatterDims.window
  rw [dif_pos (by decide +revert)]
  rfl

/-- The update at `(b, j, h)` lands on batch row `b`, slot `p b j`, column `h`. -/
private theorem rowScat_resultIdx (idx : IVec ⟨3, ![64, 512, 2]⟩ 32) (p : Fin 64 → Fin 512 → Fin 513)
    (hrow : ∀ (b : Fin 64) (j : Fin 512), (idx (ix3 b j (0 : Fin 2))).toInt = (b.val : Int))
    (hcol : ∀ (b : Fin 64) (j : Fin 512), (idx (ix3 b j (1 : Fin 2))).toInt = ((p b j).val : Int))
    (b : Fin 64) (j : Fin 512) (h : Fin 768) :
    rowScat.resultIdx? (ix3 b j h) idx = some (ix3 b (p b j) h) := by
  have hs : ∀ a : Fin (⟨3, ![64, 513, 768]⟩ : Shape).rank,
      rowScat.start (ix3 b j h) idx a + rowScat.window (ix3 b j h) a = ((ix3 b (p b j) h a).val : Int) := by
    intro a
    match a with
    | ⟨0, h0⟩ => rw [rs_start0, rs_window0, hrow]; simp
    | ⟨1, h1⟩ => rw [rs_start1, rs_window1, hcol]; simp
    | ⟨2, h2⟩ => rw [rs_start2, rs_window2]; simp
  unfold ScatterDims.resultIdx?
  rw [dif_pos]
  · congr 1
    funext a
    apply Fin.ext
    simp only [hs a]
    simp
  · intro a
    rw [hs a]
    have := (ix3 b (p b j) h a).isLt
    omega

/-- When token `(b, j)` is sent to batch row `b` and slot `p b j`, a slot no token of the row is sent to keeps
    the operand's row. -/
theorem rowScat_miss {α : Type} (x : (⟨3, ![64, 513, 768]⟩ : Shape).Idx → α) (idx : IVec ⟨3, ![64, 512, 2]⟩ 32)
    (upd : (⟨3, ![64, 512, 768]⟩ : Shape).Idx → α) (p : Fin 64 → Fin 512 → Fin 513)
    (hrow : ∀ (b : Fin 64) (j : Fin 512), (idx (ix3 b j (0 : Fin 2))).toInt = (b.val : Int))
    (hcol : ∀ (b : Fin 64) (j : Fin 512), (idx (ix3 b j (1 : Fin 2))).toInt = ((p b j).val : Int))
    (b : Fin 64) (s : Fin 513) (h : Fin 768) (hs : ∀ j : Fin 512, p b j ≠ s) :
    Host.scatter rowScat (fun _ u => u) x idx upd (ix3 b s h) = x (ix3 b s h) := by
  apply scatter_set_of_forall_ne
  intro jj
  obtain ⟨b', j', h', rfl⟩ : ∃ b' j' h', jj = ix3 b' j' h' := ⟨_, _, _, eq_ix3 jj⟩
  rw [rowScat_resultIdx idx p hrow hcol]
  intro e
  have e' := Option.some.inj e
  have e0 : b' = b := congrFun e' (0 : Fin 3)
  have e1 : p b' j' = s := congrFun e' (1 : Fin 3)
  subst e0
  exact hs _ e1

/-- … and a slot exactly one token `j₀` of the row is sent to holds that token's row. -/
theorem rowScat_hit {α : Type} (x : (⟨3, ![64, 513, 768]⟩ : Shape).Idx → α) (idx : IVec ⟨3, ![64, 512, 2]⟩ 32)
    (upd : (⟨3, ![64, 512, 768]⟩ : Shape).Idx → α) (p : Fin 64 → Fin 512 → Fin 513)
    (hrow : ∀ (b : Fin 64) (j : Fin 512), (idx (ix3 b j (0 : Fin 2))).toInt = (b.val : Int))
    (hcol : ∀ (b : Fin 64) (j : Fin 512), (idx (ix3 b j (1 : Fin 2))).toInt = ((p b j).val : Int))
    (b : Fin 64) (s : Fin 513) (h : Fin 768) (j₀ : Fin 512) (h₀ : p b j₀ = s) (hu : ∀ j : Fin 512, p b j = s → j = j₀) :
    Host.scatter rowScat (fun _ u => u) x idx upd (ix3 b s h) = upd (ix3 b j₀ h) := by
  refine scatter_set_of_unique rowScat x idx upd (ix3 b s h) (ix3 b j₀ h) ?_ ?_
  · rw [rowScat_resultIdx idx p hrow hcol, h₀]
  · intro jj
    obtain ⟨b', j', h', rfl⟩ : ∃ b' j' h', jj = ix3 b' j' h' := ⟨_, _, _, eq_ix3 jj⟩
    rw [rowScat_resultIdx idx p hrow hcol]
    intro e
    have e' := Option.some.inj e
    have e0 : b' = b := congrFun e' (0 : Fin 3)
    have e1 : p b' j' = s := congrFun e' (1 : Fin 3)
    have e2 : h' = h := congrFun e' (2 : Fin 3)
    subst e0
    subst e2
    rw [hu j' e1]

end Cert.LibScatter

end
-- ==== Proof.RefRead.lean ====
/-
  The reference's staged term read at an index, at the ideal instance: the result entry `(b, s, n)` is the sum over
  the 1792 concatenated features of feature times weight, plus the bias; the first 768 features are the compacted
  block's (the scatter's row `s` of batch row `b`), the last 1024 the second block's.  Then the scatter index
  array's two components at a token, and the slot's two selects as `if`s on the words.
-/
import proofs.«403301_j84507776516624_3_alg».proof.Proof.RefTerm
import proofs.«403301_j84507776516624_3_alg».proof.Proof.LibScatter
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators

namespace Cert.ReferenceIdeal.RefRead

open Cert.ReferenceIdeal Idealize.ShloMosaic Idealize.ShloMosaic.ValueIdx

/-! ## The pieces: the contraction's operand indices, the split of the feature sum, the layout operations at an index -/

/-- A sum over the 1792 features is the sum over the first 768 plus the sum over the last 1024. -/
private theorem sum_split (f : Fin 1792 → EReal) :
    ∑ i : Fin 1792, f i = (∑ h : Fin 768, f ⟨h.val, by omega⟩) + ∑ h : Fin 1024, f ⟨768 + h.val, by omega⟩ :=
  Fin.sum_univ_add (a := 768) (b := 1024) f

/-- The left operand's index at result index `j`: its first two coordinates are `j`'s … -/
private theorem lhs_ax0 (j : S64x512x7.Idx) (k : dot_S64x512x1792_S1792x7_S64x512x7_2_0_01_1_n_n.contr.Idx) :
    (dot_S64x512x1792_S1792x7_S64x512x7_2_0_01_1_n_n.lhsIdx j k 0 : ℕ) = j 0 := by
  simp [DotDims.lhsIdx, dot_S64x512x1792_S1792x7_S64x512x7_2_0_01_1_n_n]; rfl
private theorem lhs_ax1 (j : S64x512x7.Idx) (k : dot_S64x512x1792_S1792x7_S64x512x7_2_0_01_1_n_n.contr.Idx) :
    (dot_S64x512x1792_S1792x7_S64x512x7_2_0_01_1_n_n.lhsIdx j k 1 : ℕ) = j 1 := by
  simp [DotDims.lhsIdx, dot_S64x512x1792_S1792x7_S64x512x7_2_0_01_1_n_n]; rfl
/-- … and its last the contraction position. -/
private theorem lhs_ax2 (j : S64x512x7.Idx) (k : dot_S64x512x1792_S1792x7_S64x512x7_2_0_01_1_n_n.contr.Idx) :
    (dot_S64x512x1792_S1792x7_S64x512x7_2_0_01_1_n_n.lhsIdx j k 2 : ℕ) = k ⟨0, by decide⟩ :=
  DotDims.lhsIdx_val_of_single _ rfl j k
/-- The right operand's index: the contraction position, then `j`'s last coordinate. -/
private theorem rhs_ax0 (j : S64x512x7.Idx) (k : dot_S64x512x1792_S1792x7_S64x512x7_2_0_01_1_n_n.contr.Idx) :
    (dot_S64x512x1792_S1792x7_S64x512x7_2_0_01_1_n_n.rhsIdx j k 0 : ℕ) = k ⟨0, by decide⟩ :=
  DotDims.rhsIdx_val_of_single _ rfl j k
private theorem rhs_ax1 (j : S64x512x7.Idx) (k : dot_S64x512x1792_S1792x7_S64x512x7_2_0_01_1_n_n.contr.Idx) :
    (dot_S64x512x1792_S1792x7_S64x512x7_2_0_01_1_n_n.rhsIdx j k 1 : ℕ) = j 2 := by
  simp [DotDims.rhsIdx, dot_S64x512x1792_S1792x7_S64x512x7_2_0_01_1_n_n]; rfl

/-- The two feature blocks side by side, at a feature of the first block: the scatter's row `s`. -/
private theorem combT_left (x0 : FVec Ideal S64x512x768 .f32) (x1 : FVec Ideal S64x512x1024 .f32) (v : IVec S64x512 32)
    (b : Fin 64) (s : Fin 512) (h : Fin 768) :
    RefTerm.combT (F := Ideal) x0 x1 v (ix3 b s (⟨h.val, by omega⟩ : Fin 1792))
      = RefTerm.scatT (F := Ideal) x0 v (ix3 b (⟨s.val, by omega⟩ : Fin 513) h) := by
  unfold RefTerm.combT
  refine (concatenate_pair_apply_left (t := S64x512x1792) (s₁ := S64x512x768) (s₂ := S64x512x1024) (2 : Fin 3) _ _ _
    (ix3 b s (⟨h.val, by omega⟩ : Fin 1792)) rfl (ix3 b s h) ?_).trans ?_
  · intro a
    match a with
    | ⟨0, _⟩ => rfl
    | ⟨1, _⟩ => rfl
    | ⟨2, _⟩ => rfl
  · refine extractStridedSlice_apply _ _ _ (ix3 b s h) (ix3 b (⟨s.val, by omega⟩ : Fin 513) h) ?_
    intro a
    match a with
    | ⟨0, _⟩ => exact (Nat.zero_add _).symm
    | ⟨1, _⟩ => exact (Nat.zero_add _).symm
    | ⟨2, _⟩ => exact (Nat.zero_add _).symm

/-- … and at a feature of the second block: the second block's entry, 768 features back. -/
private theorem combT_right (x0 : FVec Ideal S64x512x768 .f32) (x1 : FVec Ideal S64x512x1024 .f32) (v : IVec S64x512 32)
    (b : Fin 64) (s : Fin 512) (h : Fin 1024) :
    RefTerm.combT (F := Ideal) x0 x1 v (ix3 b s (⟨768 + h.val, by omega⟩ : Fin 1792)) = x1 (ix3 b s h) := by
  unfold RefTerm.combT
  refine concatenate_pair_apply_right (t := S64x512x1792) (s₁ := S64x512x768) (s₂ := S64x512x1024) (2 : Fin 3) _ _ _
    (ix3 b s (⟨768 + h.val, by omega⟩ : Fin 1792)) rfl rfl (ix3 b s h) ?_ ?_
  · intro a ha
    match a with
    | ⟨0, _⟩ => rfl
    | ⟨1, _⟩ => rfl
    | ⟨2, _⟩ => exact absurd rfl ha
  · show h.val + 768 = 768 + h.val
    omega

/-- The bias broadcast to the result's shape reads the bias at the last coordinate. -/
private theorem bias_apply (bias : FVec Ideal S7 .f32) (b : Fin 64) (s : Fin 512) (n : Fin 7) :
    broadcastInDim S64x512x7 ![0, 1, 2] Facts₀.bcast_S1x1x7_S64x512x7_0_1_2
        (broadcastInDim S1x1x7 ![2] Facts₀.bcast_S7_S1x1x7_2 bias) (ix3 b s n)
      = bias (ix1 n) := by
  refine (broadcastInDim_apply _ _ _ (ix3 b s n) (ix3 (0 : Fin 1) (0 : Fin 1) n) ?_).trans ?_
  · intro a
    match a with
    | ⟨0, _⟩ => rfl
    | ⟨1, _⟩ => rfl
    | ⟨2, _⟩ => rfl
  · refine broadcastInDim_apply _ _ _ (ix3 (0 : Fin 1) (0 : Fin 1) n) (ix1 n) ?_
    intro a
    match a with
    | ⟨0, _⟩ => rfl

/-- The batch-row column at `(b, 0)` is the word of `b`: a row number below 64 is not negative, so it is not wrapped. -/
theorem rowT_apply (b : Fin 64) : RefTerm.rowT (ix2 b (0 : Fin 1)) = BitVec.ofNat 32 b.val := by
  show Scalar.select (IntOp.cmpi .slt (BitVec.ofNat 32 b.val) 0#32) (BitVec.ofNat 32 b.val + 64#32) (BitVec.ofNat 32 b.val) = _
  unfold Scalar.select
  rw [if_neg]
  intro h
  have hb := b.isLt
  have := (StableHlo.Predicate.slt_ofNat_iff b.val 0 (by omega) (by omega)).mp h
  omega

/-! ## The staged term read at an index -/

/-- Entry `(b, s, n)` of the reference's result: the contraction over the 1792 features split at 768, plus the bias. -/
theorem outT_apply (x0 : FVec Ideal S64x512x768 .f32) (x1 : FVec Ideal S64x512x1024 .f32) (v : IVec S64x512 32)
    (w : FVec Ideal S1792x7 .f32) (bias : FVec Ideal S7 .f32) (b : Fin 64) (s : Fin 512) (n : Fin 7) :
    RefTerm.outT (F := Ideal) x0 x1 v w bias (ix3 b s n)
      = ((∑ h : Fin 768, RefTerm.scatT (F := Ideal) x0 v (ix3 b (⟨s.val, by omega⟩ : Fin 513) h)
              * w (ix2 (⟨h.val, by omega⟩ : Fin 1792) n))
          + ∑ h : Fin 1024, x1 (ix3 b s h) * w (ix2 (⟨768 + h.val, by omega⟩ : Fin 1792) n))
        + bias (ix1 n) := by
  unfold RefTerm.outT
  rw [addf_apply, bias_apply]
  refine congrArg (· + bias (ix1 n)) ?_
  simp only [Host.dotGeneral]
  rw [Ideal.dotGeneral_apply,
    ← Equiv.sum_comp (contrEquiv1 dot_S64x512x1792_S1792x7_S64x512x7_2_0_01_1_n_n 1792 rfl rfl).symm]
  have hl : ∀ i : Fin 1792, dot_S64x512x1792_S1792x7_S64x512x7_2_0_01_1_n_n.lhsIdx (ix3 b s n)
      ((contrEquiv1 dot_S64x512x1792_S1792x7_S64x512x7_2_0_01_1_n_n 1792 rfl rfl).symm i) = ix3 b s i := by
    intro i
    funext a
    refine Fin.ext ?_
    match a with
    | ⟨0, _⟩ => exact lhs_ax0 _ _
    | ⟨1, _⟩ => exact lhs_ax1 _ _
    | ⟨2, _⟩ => exact (lhs_ax2 _ _).trans (contrEquiv1_symm_val _ 1792 rfl rfl i)
  have hr : ∀ i : Fin 1792, dot_S64x512x1792_S1792x7_S64x512x7_2_0_01_1_n_n.rhsIdx (ix3 b s n)
      ((contrEquiv1 dot_S64x512x1792_S1792x7_S64x512x7_2_0_01_1_n_n 1792 rfl rfl).symm i) = ix2 i n := by
    intro i
    funext a
    refine Fin.ext ?_
    match a with
    | ⟨0, _⟩ => exact (rhs_ax0 _ _).trans (contrEquiv1_symm_val _ 1792 rfl rfl i)
    | ⟨1, _⟩ => exact rhs_ax1 _ _
  simp only [hl, hr]
  rw [sum_split]
  refine congrArg₂ (· + ·) ?_ ?_
  · exact Finset.sum_congr rfl fun h _ => by rw [combT_left]
  · exact Finset.sum_congr rfl fun h _ => by rw [combT_right]

/-- The scatter of the staged term is the scatter at the literal dimension record into zeros. -/
theorem scatT_eq (x0 : FVec Ideal S64x512x768 .f32) (v : IVec S64x512 32) :
    RefTerm.scatT (F := Ideal) x0 v
      = Host.scatter Cert.LibScatter.rowScat (fun _ u => u) (fun _ => (0 : EReal)) (RefTerm.idxT v) x0 := by
  have hz : (broadcastInDim S64x513x768 ![] Facts₀.bcast_S_S64x513x768 (constant (F := Ideal) S_ .f32 0x00000000#32))
      = fun _ => (0 : EReal) := by
    funext i
    exact Ideal.ofBits_zero_f32
  have hd : scatter_S64x513x768_S64x512x2_S64x512x768_2_01_01_2 = Cert.LibScatter.rowScat := rfl
  unfold RefTerm.scatT
  rw [hz, hd]

/-- Component 0 of the scatter index at token `(b, j)` is the batch row. -/
theorem idxT_row (v : IVec S64x512 32) (b : Fin 64) (j : Fin 512) :
    RefTerm.idxT v (ix3 b j (0 : Fin 2)) = BitVec.ofNat 32 b.val := by
  unfold RefTerm.idxT
  refine (concatenate_pair_apply_left (t := S64x512x2) (s₁ := S64x512x1) (s₂ := S64x512x1) (2 : Fin 3) _ _ _
    (ix3 b j (0 : Fin 2)) rfl (ix3 b j (0 : Fin 1)) ?_).trans ?_
  · intro a
    match a with
    | ⟨0, _⟩ => rfl
    | ⟨1, _⟩ => rfl
    | ⟨2, _⟩ => rfl
  · refine (broadcastInDim_apply _ _ _ (ix3 b j (0 : Fin 1)) (ix2 b j) ?_).trans ?_
    · intro a
      match a with
      | ⟨0, _⟩ => rfl
      | ⟨1, _⟩ => rfl
    · refine (broadcastInDim_apply _ _ _ (ix2 b j) (ix2 b (0 : Fin 1)) ?_).trans ?_
      · intro a
        match a with
        | ⟨0, _⟩ => rfl
        | ⟨1, _⟩ => rfl
      · exact rowT_apply b

/-- Component 1 of the scatter index at token `(b, j)` is the wrapped slot. -/
theorem idxT_col (v : IVec S64x512 32) (b : Fin 64) (j : Fin 512) :
    RefTerm.idxT v (ix3 b j (1 : Fin 2)) = RefTerm.colT v (ix2 b j) := by
  unfold RefTerm.idxT
  refine (concatenate_pair_apply_right (t := S64x512x2) (s₁ := S64x512x1) (s₂ := S64x512x1) (2 : Fin 3) _ _ _
    (ix3 b j (1 : Fin 2)) rfl rfl (ix3 b j (0 : Fin 1)) ?_ ?_).trans ?_
  · intro a ha
    match a with
    | ⟨0, _⟩ => rfl
    | ⟨1, _⟩ => rfl
    | ⟨2, _⟩ => exact absurd rfl ha
  · rfl
  · refine (broadcastInDim_apply _ _ _ (ix3 b j (0 : Fin 1)) (ix2 b j) ?_).trans rfl
    intro a
    match a with
    | ⟨0, _⟩ => rfl
    | ⟨1, _⟩ => rfl

/-- The wrapped slot: 513 is added to a negative slot. -/
theorem colT_apply (v : IVec S64x512 32) (b : Fin 64) (j : Fin 512) :
    RefTerm.colT v (ix2 b j)
      = if (RefTerm.posT v (ix2 b j)).toInt < 0 then RefTerm.posT v (ix2 b j) + 513#32 else RefTerm.posT v (ix2 b j) := by
  show Scalar.select (IntOp.cmpi .slt (RefTerm.posT v (ix2 b j)) 0#32) (RefTerm.posT v (ix2 b j) + 513#32)
      (RefTerm.posT v (ix2 b j)) = _
  generalize RefTerm.posT v (ix2 b j) = x
  have h0 : (0#32 : BitVec 32).toInt = 0 := by decide
  unfold Scalar.select
  by_cases h : x.toInt < 0
  · rw [if_pos h]
    refine if_pos ?_
    show BitVec.ofBool (decide (x.toInt < (0#32 : BitVec 32).toInt)) = 1#1
    rw [h0, StableHlo.Predicate.ofBool_eq_one_iff]; exact decide_eq_true h
  · rw [if_neg h]
    refine if_neg ?_
    show ¬ BitVec.ofBool (decide (x.toInt < (0#32 : BitVec 32).toInt)) = 1#1
    rw [h0, StableHlo.Predicate.ofBool_eq_one_iff]; exact fun h' => h (of_decide_eq_true h')

/-- The slot: the running count minus one where the word is one, 512 elsewhere. -/
theorem posT_apply (v : IVec S64x512 32) (b : Fin 64) (j : Fin 512) :
    RefTerm.posT v (ix2 b j) = if v (ix2 b j) = 1#32 then RefTerm.cumT v (ix2 b j) - 1#32 else 512#32 := by
  show Scalar.select (IntOp.cmpi .eq (v (ix2 b j)) 1#32) (RefTerm.cumT v (ix2 b j) - 1#32) 512#32 = _
  unfold Scalar.select
  by_cases h : v (ix2 b j) = 1#32
  · rw [if_pos h]; exact if_pos (StableHlo.Predicate.cmpi_eq_iff.mpr h)
  · rw [if_neg h]; exact if_neg (fun h' => h (StableHlo.Predicate.cmpi_eq_iff.mp h'))

end Cert.ReferenceIdeal.RefRead

end
-- ==== Proof.LibCumsum.lean ====
/-
  The running count along a row, as the host program computes it: a window of 512 positions, padded 511 low,
  summed in 32-bit words.  For a row of words that are each 0 or 1 the window sum at position `j` is the number of
  ones at positions `≤ j` (no wrap: at most 512), so on the positions holding a one it is at least 1, at most 512,
  and strictly increasing, hence injective.
-/
import Idealize.ShloMosaic.PureOps.Contract
import Idealize.ShloMosaic.Lib.ValueIdx
import Mathlib.Algebra.BigOperators.Fin

noncomputable section

namespace Cert.LibCumsum

open Idealize.ShloMosaic Idealize.ShloMosaic.ValueIdx

/-- The window has 512 positions. -/
private theorem numelW : (⟨2, ![1, 512]⟩ : Shape).numel = 512 := by
  simp [Shape.numel, Fin.prod_univ_succ]

private theorem n_lt (n : Fin (⟨2, ![1, 512]⟩ : Shape).numel) : n.val < 512 := lt_of_lt_of_eq n.isLt numelW

/-- Window position `n` has coordinates `(0, n)`. -/
private theorem symm_val (n : Fin (⟨2, ![1, 512]⟩ : Shape).numel) :
    (((⟨2, ![1, 512]⟩ : Shape).rowMajor.symm n) 0).val = 0
      ∧ (((⟨2, ![1, 512]⟩ : Shape).rowMajor.symm n) 1).val = n.val := by
  have h := Shape.rowMajor_val_two ((⟨2, ![1, 512]⟩ : Shape).rowMajor.symm n)
  rw [Equiv.apply_symm_apply] at h
  have h0 : (((⟨2, ![1, 512]⟩ : Shape).rowMajor.symm n) 0).val < 1 :=
    (((⟨2, ![1, 512]⟩ : Shape).rowMajor.symm n) 0).isLt
  have h1 : (![1, 512] : Fin 2 → Nat) 1 = 512 := rfl
  rw [h1] at h
  omega

/-- Row `b` read at a natural position, zero past the end. -/
private def row (v : IVec ⟨2, ![64, 512]⟩ 32) (b : Fin 64) (m : Nat) : BitVec 32 :=
  if h : m < 512 then v (ix2 b ⟨m, h⟩) else 0#32

private theorem row_val (v : IVec ⟨2, ![64, 512]⟩ 32) (b : Fin 64) (k : Fin 512) : row v b k.val = v (ix2 b k) := by
  unfold row; rw [dif_pos k.isLt]

private theorem row_toNat (v : IVec ⟨2, ![64, 512]⟩ 32) (hv : ∀ i, v i = 0#32 ∨ v i = 1#32) (b : Fin 64) (m : Nat) :
    (row v b m).toNat = if row v b m = 1#32 then 1 else 0 := by
  have h01 : row v b m = 0#32 ∨ row v b m = 1#32 := by
    unfold row; split
    · exact hv _
    · exact Or.inl rfl
  rcases h01 with h | h <;> rw [h] <;> decide

/-- The element the window sum adds at window position `n` of result `(b, j)`: row `b` at `j + n - 511`, the
    initial value where that is padding. -/
private theorem elem_eq (v : IVec ⟨2, ![64, 512]⟩ 32) (v0 : BitVec 32) (b : Fin 64) (j : Fin 512)
    (n : Fin (⟨2, ![1, 512]⟩ : Shape).numel) (hc : (2 : Nat) = 2) :
    (if h : ∀ (a : Fin 2),
          (![0, 511] : Fin 2 → Nat) a ≤
              ((ix2 b j (Fin.cast hc a)).val * (![1, 1] : Fin 2 → Nat) a + ((⟨2, ![1, 512]⟩ : Shape).rowMajor.symm n a).val) ∧
            (ix2 b j (Fin.cast hc a)).val * (![1, 1] : Fin 2 → Nat) a + ((⟨2, ![1, 512]⟩ : Shape).rowMajor.symm n a).val -
                (![0, 511] : Fin 2 → Nat) a <
              (![64, 512] : Fin 2 → Nat) a then
        v fun a =>
          ⟨(ix2 b j (Fin.cast hc a)).val * (![1, 1] : Fin 2 → Nat) a + ((⟨2, ![1, 512]⟩ : Shape).rowMajor.symm n a).val -
              (![0, 511] : Fin 2 → Nat) a, (h a).2⟩
      else v0)
    = if 511 ≤ j.val + n.val then row v b (j.val + n.val - 511) else v0 := by
  obtain ⟨s0, s1⟩ := symm_val n
  have hn : n.val < 512 := n_lt n
  by_cases h : 511 ≤ j.val + n.val
  · have hin : ∀ (a : Fin 2),
          (![0, 511] : Fin 2 → Nat) a ≤
              ((ix2 b j (Fin.cast hc a)).val * (![1, 1] : Fin 2 → Nat) a + ((⟨2, ![1, 512]⟩ : Shape).rowMajor.symm n a).val) ∧
            (ix2 b j (Fin.cast hc a)).val * (![1, 1] : Fin 2 → Nat) a + ((⟨2, ![1, 512]⟩ : Shape).rowMajor.symm n a).val -
                (![0, 511] : Fin 2 → Nat) a <
              (![64, 512] : Fin 2 → Nat) a := by
      intro a
      match a with
      | ⟨0, _⟩ =>
        show 0 ≤ b.val * 1 + ((⟨2, ![1, 512]⟩ : Shape).rowMajor.symm n 0).val
          ∧ b.val * 1 + ((⟨2, ![1, 512]⟩ : Shape).rowMajor.symm n 0).val - 0 < 64
        rw [s0]; have := b.isLt; omega
      | ⟨1, _⟩ =>
        show 511 ≤ j.val * 1 + ((⟨2, ![1, 512]⟩ : Shape).rowMajor.symm n 1).val
          ∧ j.val * 1 + ((⟨2, ![1, 512]⟩ : Shape).rowMajor.symm n 1).val - 511 < 512
        rw [s1]; have := j.isLt; omega
    have hlt : j.val + n.val - 511 < 512 := by have := j.isLt; omega
    rw [dif_pos hin, if_pos h]
    unfold row
    rw [dif_pos hlt]
    congr 1
    funext a
    match a with
    | ⟨0, _⟩ =>
      apply Fin.ext
      show b.val * 1 + ((⟨2, ![1, 512]⟩ : Shape).rowMajor.symm n 0).val - 0 = b.val
      rw [s0]; omega
    | ⟨1, _⟩ =>
      apply Fin.ext
      show j.val * 1 + ((⟨2, ![1, 512]⟩ : Shape).rowMajor.symm n 1).val - 511 = j.val + n.val - 511
      rw [s1]; omega
  · rw [dif_neg, if_neg h]
    intro hin
    have h1 := (hin 1).1
    change 511 ≤ j.val * 1 + ((⟨2, ![1, 512]⟩ : Shape).rowMajor.symm n 1).val at h1
    rw [s1] at h1; omega

/-- A left fold of word addition that does not wrap has the sum of the values as its value. -/
private theorem foldl_toNat {ι : Type} (g : ι → BitVec 32) (l : List ι) (acc : BitVec 32)
    (h : acc.toNat + (l.map fun n => (g n).toNat).sum < 2 ^ 32) :
    (l.foldl (fun r n => IntOp.addi r (g n)) acc).toNat = acc.toNat + (l.map fun n => (g n).toNat).sum := by
  induction l generalizing acc with
  | nil => simp
  | cons a l ih =>
    simp only [List.map_cons, List.sum_cons] at h
    have ha : (IntOp.addi acc (g a)).toNat = acc.toNat + (g a).toNat := by
      show (acc + g a).toNat = _
      rw [BitVec.toNat_add]; exact Nat.mod_eq_of_lt (by omega)
    rw [List.foldl_cons, ih _ (by rw [ha]; omega), ha]
    simp only [List.map_cons, List.sum_cons]; omega

/-- The window sum at `(b, j)` counts the ones of row `b` at positions `≤ j`. -/
theorem cumsum_toNat (v : IVec ⟨2, ![64, 512]⟩ 32) (init : (⟨0, ![]⟩ : Shape).Idx → BitVec 32)
    (hw : (⟨2, ![64, 512]⟩ : Shape).ReduceWindows ![1, 512] ![1, 1] ![0, 511] ![0, 0] ⟨2, ![64, 512]⟩)
    (hu : 0 < (⟨0, ![]⟩ : Shape).numel)
    (hv : ∀ i, v i = 0#32 ∨ v i = 1#32) (hinit : ∀ k, init k = 0#32) (b : Fin 64) (j : Fin 512) :
    (Host.reduceWindow IntOp.addi ![1, 512] ![1, 1] ![0, 511] ![0, 0] v init hw hu (ix2 b j)).toNat
      = (Finset.univ.filter fun k : Fin 512 => k ≤ j ∧ v (ix2 b k) = 1#32).card := by
  unfold Host.reduceWindow
  simp only [hinit, elem_eq v (0#32) b j]
  -- each term of the sum is the indicator of "the position is not padding and holds a one"
  have hg : ∀ n : Fin (⟨2, ![1, 512]⟩ : Shape).numel,
      (if 511 ≤ j.val + n.val then row v b (j.val + n.val - 511) else 0#32).toNat
        = if 511 ≤ j.val + n.val ∧ row v b (j.val + n.val - 511) = 1#32 then 1 else 0 := by
    intro n
    by_cases h : 511 ≤ j.val + n.val
    · rw [if_pos h, row_toNat v hv b]
      by_cases h2 : row v b (j.val + n.val - 511) = 1#32
      · rw [if_pos h2, if_pos ⟨h, h2⟩]
      · rw [if_neg h2, if_neg (fun hh => h2 hh.2)]
    · rw [if_neg h, if_neg (fun hh => h hh.1)]; rfl
  have hsum : ((List.finRange (⟨2, ![1, 512]⟩ : Shape).numel).map fun n =>
        (if 511 ≤ j.val + n.val then row v b (j.val + n.val - 511) else 0#32).toNat).sum
      = (Finset.univ.filter fun n : Fin (⟨2, ![1, 512]⟩ : Shape).numel =>
          511 ≤ j.val + n.val ∧ row v b (j.val + n.val - 511) = 1#32).card := by
    rw [← Fin.sum_univ_def, Finset.card_filter]
    exact Finset.sum_congr rfl fun n _ => hg n
  have hbound : (Finset.univ.filter fun n : Fin (⟨2, ![1, 512]⟩ : Shape).numel =>
          511 ≤ j.val + n.val ∧ row v b (j.val + n.val - 511) = 1#32).card ≤ 512 := by
    refine (Finset.card_le_univ _).trans ?_
    rw [Fintype.card_fin, numelW]
  have hz : (0#32 : BitVec 32).toNat = 0 := rfl
  rw [foldl_toNat _ _ _ (by rw [hsum, hz]; omega), hsum, hz, Nat.zero_add]
  -- re-index: window position `n` reads row position `j + n - 511`
  have hjl := j.isLt
  refine Finset.card_bij (fun n _ => (⟨j.val + n.val - 511, by have := n_lt n; omega⟩ : Fin 512)) ?_ ?_ ?_
  · intro n hn
    rw [Finset.mem_filter] at hn ⊢
    obtain ⟨-, h1, h2⟩ := hn
    have hnl := n_lt n
    refine ⟨Finset.mem_univ _, ?_, ?_⟩
    · show j.val + n.val - 511 ≤ j.val
      omega
    · rw [← row_val v b]; exact h2
  · intro n hn n' hn' he
    rw [Finset.mem_filter] at hn hn'
    have h1 := hn.2.1
    have h1' := hn'.2.1
    have he' : j.val + n.val - 511 = j.val + n'.val - 511 := congrArg Fin.val he
    exact Fin.ext (by omega)
  · intro k hk
    rw [Finset.mem_filter] at hk
    obtain ⟨-, hk1, hk2⟩ := hk
    have hk1' : k.val ≤ j.val := hk1
    have hkl := k.isLt
    have hidx : j.val + (k.val + 511 - j.val) - 511 = k.val := by omega
    refine ⟨⟨k.val + 511 - j.val, by rw [numelW]; omega⟩, ?_, ?_⟩
    · rw [Finset.mem_filter]
      refine ⟨Finset.mem_univ _, ?_, ?_⟩
      · show 511 ≤ j.val + (k.val + 511 - j.val)
        omega
      · show row v b (j.val + (k.val + 511 - j.val) - 511) = 1#32
        rw [hidx, row_val]; exact hk2
    · exact Fin.ext hidx

/-- At a position holding a one the count is between 1 and 512. -/
theorem cumsum_range (v : IVec ⟨2, ![64, 512]⟩ 32) (init : (⟨0, ![]⟩ : Shape).Idx → BitVec 32)
    (hw : (⟨2, ![64, 512]⟩ : Shape).ReduceWindows ![1, 512] ![1, 1] ![0, 511] ![0, 0] ⟨2, ![64, 512]⟩)
    (hu : 0 < (⟨0, ![]⟩ : Shape).numel)
    (hv : ∀ i, v i = 0#32 ∨ v i = 1#32) (hinit : ∀ k, init k = 0#32) (b : Fin 64) (j : Fin 512)
    (hj : v (ix2 b j) = 1#32) :
    1 ≤ (Host.reduceWindow IntOp.addi ![1, 512] ![1, 1] ![0, 511] ![0, 0] v init hw hu (ix2 b j)).toNat
      ∧ (Host.reduceWindow IntOp.addi ![1, 512] ![1, 1] ![0, 511] ![0, 0] v init hw hu (ix2 b j)).toNat ≤ 512 := by
  rw [cumsum_toNat v init hw hu hv hinit b j]
  constructor
  · exact Finset.card_pos.2 ⟨j, Finset.mem_filter.2 ⟨Finset.mem_univ _, le_refl j, hj⟩⟩
  · exact (Finset.card_le_univ _).trans (le_of_eq (Fintype.card_fin 512))

/-- Two positions of one row that both hold a one and have the same count are the same position. -/
theorem cumsum_inj (v : IVec ⟨2, ![64, 512]⟩ 32) (init : (⟨0, ![]⟩ : Shape).Idx → BitVec 32)
    (hw : (⟨2, ![64, 512]⟩ : Shape).ReduceWindows ![1, 512] ![1, 1] ![0, 511] ![0, 0] ⟨2, ![64, 512]⟩)
    (hu : 0 < (⟨0, ![]⟩ : Shape).numel)
    (hv : ∀ i, v i = 0#32 ∨ v i = 1#32) (hinit : ∀ k, init k = 0#32) (b : Fin 64) (j j' : Fin 512)
    (hj : v (ix2 b j) = 1#32) (hj' : v (ix2 b j') = 1#32)
    (heq : Host.reduceWindow IntOp.addi ![1, 512] ![1, 1] ![0, 511] ![0, 0] v init hw hu (ix2 b j)
         = Host.reduceWindow IntOp.addi ![1, 512] ![1, 1] ![0, 511] ![0, 0] v init hw hu (ix2 b j')) :
    j = j' := by
  -- the count strictly increases from a position to a later position holding a one
  have key : ∀ i i' : Fin 512, i < i' → v (ix2 b i') = 1#32 →
      (Finset.univ.filter fun k : Fin 512 => k ≤ i ∧ v (ix2 b k) = 1#32).card
        < (Finset.univ.filter fun k : Fin 512 => k ≤ i' ∧ v (ix2 b k) = 1#32).card := by
    intro i i' hlt hi'
    apply Finset.card_lt_card
    have hsub : (Finset.univ.filter fun k : Fin 512 => k ≤ i ∧ v (ix2 b k) = 1#32)
        ⊆ (Finset.univ.filter fun k : Fin 512 => k ≤ i' ∧ v (ix2 b k) = 1#32) := by
      intro k hk
      rw [Finset.mem_filter] at hk ⊢
      exact ⟨hk.1, le_trans hk.2.1 (le_of_lt hlt), hk.2.2⟩
    refine (Finset.ssubset_iff_of_subset hsub).2 ⟨i', ?_, ?_⟩
    · exact Finset.mem_filter.2 ⟨Finset.mem_univ _, le_refl i', hi'⟩
    · intro hmem
      rw [Finset.mem_filter] at hmem
      exact absurd hmem.2.1 (not_le_of_gt hlt)
  have e := congrArg BitVec.toNat heq
  rw [cumsum_toNat v init hw hu hv hinit b j, cumsum_toNat v init hw hu hv hinit b j'] at e
  rcases lt_trichotomy j j' with h | h | h
  · exact absurd e (Nat.ne_of_lt (key j j' h hj'))
  · exact h
  · exact absurd e.symm (Nat.ne_of_lt (key j' j h hj))

end Cert.LibCumsum

end
-- ==== Proof.RefValue.lean ====
/-
  The reference's result is the specification, when every validity word is 0 or 1.

  Along a row the running count is, on the positions holding a one, between 1 and 512 and injective; so the slot
  (count minus one there, 512 elsewhere) is below 513, never negative, and two tokens of one row share a slot below 512
  only if they are the same token.  The scatter into 513 zero rows therefore leaves in row `s < 512` of batch row `b`
  the features of the one token whose slot is `s`, or zeros when there is none; contracting that row with the weight
  gives the token's projection, or zero: the selected sum of the specification.
-/
import proofs.«403301_j84507776516624_3_alg».proof.Proof.RefRead
import proofs.«403301_j84507776516624_3_alg».proof.Proof.LibScatter
import proofs.«403301_j84507776516624_3_alg».proof.Proof.LibCumsum
import proofs.«403301_j84507776516624_3_alg».proof.Proof.Spec
import Idealize.ShloMosaic.Lib.StableHlo.Predicate

noncomputable section

open scoped BigOperators

namespace Cert.RefValue

open Cert.ReferenceIdeal Idealize.ShloMosaic Idealize.ShloMosaic.ValueIdx

variable (v : IVec S64x512 32) (hv : ∀ i, v i = 0#32 ∨ v i = 1#32)

include hv

/-- On a position holding a one the running count is between 1 and 512. -/
theorem cum_range (b : Fin 64) (j : Fin 512) (hj : v (ix2 b j) = 1#32) :
    1 ≤ (RefTerm.cumT v (ix2 b j)).toNat ∧ (RefTerm.cumT v (ix2 b j)).toNat ≤ 512 :=
  Cert.LibCumsum.cumsum_range v _ _ _ hv (fun _ => rfl) b j hj

/-- Two positions of a row holding a one with the same running count are the same. -/
theorem cum_inj (b : Fin 64) (j j' : Fin 512) (hj : v (ix2 b j) = 1#32) (hj' : v (ix2 b j') = 1#32)
    (h : RefTerm.cumT v (ix2 b j) = RefTerm.cumT v (ix2 b j')) : j = j' :=
  Cert.LibCumsum.cumsum_inj v _ _ _ hv (fun _ => rfl) b j j' hj hj' h

/-- The slot of a token holding a one is its running count minus one. -/
theorem pos_valid (b : Fin 64) (j : Fin 512) (hj : v (ix2 b j) = 1#32) :
    (RefTerm.posT v (ix2 b j)).toNat + 1 = (RefTerm.cumT v (ix2 b j)).toNat := by
  obtain ⟨h1, h2⟩ := cum_range v hv b j hj
  rw [RefRead.posT_apply, if_pos hj, BitVec.toNat_sub]
  simp only [BitVec.toNat_ofNat]
  omega

omit hv in
/-- The slot of any other token is 512. -/
theorem pos_invalid (b : Fin 64) (j : Fin 512) (hj : v (ix2 b j) ≠ 1#32) : RefTerm.posT v (ix2 b j) = 512#32 := by
  rw [RefRead.posT_apply, if_neg hj]

/-- Every slot is below 513. -/
theorem pos_lt (b : Fin 64) (j : Fin 512) : (RefTerm.posT v (ix2 b j)).toNat < 513 := by
  by_cases hj : v (ix2 b j) = 1#32
  · have := pos_valid v hv b j hj
    have := (cum_range v hv b j hj).2
    omega
  · rw [pos_invalid v b j hj]; decide

/-- A slot below 512 belongs to a token holding a one. -/
theorem valid_of_pos_lt (b : Fin 64) (j : Fin 512) (h : (RefTerm.posT v (ix2 b j)).toNat < 512) : v (ix2 b j) = 1#32 := by
  by_contra hj
  rw [pos_invalid v b j hj] at h
  exact absurd h (by decide)

/-- Two tokens of a row sharing a slot below 512 are the same token. -/
theorem pos_inj (b : Fin 64) (j j' : Fin 512) (h : (RefTerm.posT v (ix2 b j)).toNat < 512)
    (e : RefTerm.posT v (ix2 b j) = RefTerm.posT v (ix2 b j')) : j = j' := by
  have hj := valid_of_pos_lt v hv b j h
  have hj' := valid_of_pos_lt v hv b j' (e ▸ h)
  have e1 := pos_valid v hv b j hj
  have e2 := pos_valid v hv b j' hj'
  refine cum_inj v hv b j j' hj hj' (BitVec.eq_of_toNat_eq ?_)
  rw [← e1, ← e2, e]

/-- The slot as a number below 513. -/
def slot (b : Fin 64) (j : Fin 512) : Fin 513 := ⟨(RefTerm.posT v (ix2 b j)).toNat, pos_lt v hv b j⟩

/-- The scatter's batch-row component, read signed. -/
theorem row_toInt (b : Fin 64) (j : Fin 512) : (RefTerm.idxT v (ix3 b j (0 : Fin 2))).toInt = (b.val : Int) := by
  rw [RefRead.idxT_row]
  exact StableHlo.Predicate.toInt_ofNat_small b.val (by have := b.isLt; omega)

/-- The scatter's slot component, read signed: the slot is never negative, so it is not wrapped. -/
theorem col_toInt (b : Fin 64) (j : Fin 512) :
    (RefTerm.idxT v (ix3 b j (1 : Fin 2))).toInt = ((slot v hv b j).val : Int) := by
  have hlt := pos_lt v hv b j
  have hi : (RefTerm.posT v (ix2 b j)).toInt = ((RefTerm.posT v (ix2 b j)).toNat : Int) :=
    StableHlo.Predicate.toInt_eq_toNat_of_lt (by omega)
  rw [RefRead.idxT_col, RefRead.colT_apply, if_neg (by rw [hi]; omega), hi]
  rfl

/-- A token's slot is `s` exactly when its slot word is the word `s`. -/
theorem slot_eq_iff (b : Fin 64) (j : Fin 512) (s : Fin 512) :
    slot v hv b j = (⟨s.val, by omega⟩ : Fin 513) ↔ BitVec.ofNat 32 s.val = RefTerm.posT v (ix2 b j) := by
  constructor
  · intro h
    have h' : (RefTerm.posT v (ix2 b j)).toNat = s.val := congrArg Fin.val h
    apply BitVec.eq_of_toNat_eq
    rw [h', BitVec.toNat_ofNat]
    have := s.isLt
    omega
  · intro h
    apply Fin.ext
    show (RefTerm.posT v (ix2 b j)).toNat = s.val
    rw [← h, BitVec.toNat_ofNat]
    have := s.isLt
    omega

/-- THE REFERENCE'S RESULT IS THE SPECIFICATION at the reference's own slot array. -/
theorem outT_eq (x0 : FVec Ideal S64x512x768 .f32) (x1 : FVec Ideal S64x512x1024 .f32)
    (w : FVec Ideal S1792x7 .f32) (bias : FVec Ideal S7 .f32) :
    RefTerm.outT (F := Ideal) x0 x1 v w bias = Cert.Spec.Gv x0 x1 (RefTerm.posT v) w bias := by
  funext i
  obtain ⟨b, s, n, rfl⟩ : ∃ (b : Fin 64) (s : Fin 512) (n : Fin 7), i = ix3 b s n := ⟨i 0, i 1, i 2, eq_ix3 i⟩
  rw [RefRead.outT_apply, Cert.Spec.Gv_ix3]
  unfold Cert.Spec.G
  -- the compacted block's row against the selected projection
  have key : (∑ h : Fin 768, RefTerm.scatT (F := Ideal) x0 v (ix3 b (⟨s.val, by omega⟩ : Fin 513) h)
                * w (ix2 (⟨h.val, by omega⟩ : Fin 1792) n))
      = ∑ j : Fin 512, if BitVec.ofNat 32 s.val = RefTerm.posT v (ix2 b j)
          then ∑ h : Fin 768, x0 (ix3 b j h) * w (ix2 (⟨h.val, by omega⟩ : Fin 1792) n) else 0 := by
    by_cases hex : ∃ j₀ : Fin 512, slot v hv b j₀ = (⟨s.val, by omega⟩ : Fin 513)
    · obtain ⟨j₀, hj₀⟩ := hex
      have huniq : ∀ j : Fin 512, slot v hv b j = (⟨s.val, by omega⟩ : Fin 513) → j = j₀ := by
        intro j hj
        have hlt : (RefTerm.posT v (ix2 b j)).toNat < 512 := by
          have : (RefTerm.posT v (ix2 b j)).toNat = s.val := congrArg Fin.val hj
          have := s.isLt; omega
        exact pos_inj v hv b j j₀ hlt (((slot_eq_iff v hv b j s).1 hj).symm.trans ((slot_eq_iff v hv b j₀ s).1 hj₀))
      have hsc : ∀ h : Fin 768, RefTerm.scatT (F := Ideal) x0 v (ix3 b (⟨s.val, by omega⟩ : Fin 513) h) = x0 (ix3 b j₀ h) := by
        intro h
        rw [RefRead.scatT_eq]
        exact Cert.LibScatter.rowScat_hit _ _ _ (slot v hv) (row_toInt v hv) (col_toInt v hv) b _ h j₀ hj₀ huniq
      rw [Finset.sum_eq_single j₀]
      · rw [if_pos ((slot_eq_iff v hv b j₀ s).1 hj₀)]
        exact Finset.sum_congr rfl fun h _ => by rw [hsc h]
      · intro j _ hne
        rw [if_neg]
        intro hc
        exact hne (huniq j ((slot_eq_iff v hv b j s).2 hc))
      · intro hn; exact absurd (Finset.mem_univ j₀) hn
    · have hnone : ∀ j : Fin 512, slot v hv b j ≠ (⟨s.val, by omega⟩ : Fin 513) := fun j hj => hex ⟨j, hj⟩
      have hsc : ∀ h : Fin 768, RefTerm.scatT (F := Ideal) x0 v (ix3 b (⟨s.val, by omega⟩ : Fin 513) h) = 0 := by
        intro h
        rw [RefRead.scatT_eq]
        exact Cert.LibScatter.rowScat_miss _ _ _ (slot v hv) (row_toInt v hv) (col_toInt v hv) b _ h hnone
      rw [Finset.sum_eq_zero (fun h _ => by rw [hsc h, zero_mul])]
      refine (Finset.sum_eq_zero fun j _ => ?_).symm
      rw [if_neg]
      intro hc
      exact hnone j ((slot_eq_iff v hv b j s).2 hc)
  rw [key]

end Cert.RefValue

end
-- ==== Proof.Bridge.lean ====
/-
  The kernel counts the words compared with one, the reference the words themselves; on words that are each 0 or 1
  the comparison widened back to a word IS the word, so the two running counts, and with them the two slot arrays,
  are the same array.
-/
import proofs.«403301_j84507776516624_3_alg».proof.Proof.KernelHost
import proofs.«403301_j84507776516624_3_alg».proof.Proof.RefTerm

noncomputable section

namespace Cert.Bridge

open Idealize.ShloMosaic

/-- On 0/1 words the widened comparison with one is the word. -/
theorem kmask_eq (v : IVec ⟨2, ![64, 512]⟩ 32) (hv : ∀ i, v i = 0#32 ∨ v i = 1#32) :
    Cert.KernelIdeal.KHost.kmaskT v = v := by
  funext i
  show (IntOp.cmpi .eq (v i) 1#32).setWidth 32 = v i
  rcases hv i with h | h <;> rw [h] <;> decide

attribute [local irreducible] Host.reduceWindow in
/-- So the kernel's slot array is the reference's. -/
theorem kpos_eq (v : IVec ⟨2, ![64, 512]⟩ 32) (hv : ∀ i, v i = 0#32 ∨ v i = 1#32) :
    Cert.KernelIdeal.KHost.kposT v = Cert.ReferenceIdeal.RefTerm.posT v := by
  unfold Cert.KernelIdeal.KHost.kposT Cert.KernelIdeal.KHost.kcumT
  rw [kmask_eq v hv]
  rfl

end Cert.Bridge

end
-- ==== Proof.PreDecode.lean ====
/-
  What the precondition says of the validity words: its last conjunct is "every word is 0 or 1", an `and`-reduction
  over all 64 × 512 words of the `or` of the two word comparisons, so where the whole precondition is 1 every word is
  0 or 1.
-/
import proofs.«403301_j84507776516624_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

instance : Subsingleton S_.Idx := ⟨fun _ _ => funext fun d => d.elim0⟩

/-- Under the precondition every validity word is 0 or 1. -/
theorem words_01 {F : FTy → Type} [FloatOps F] (a0 : FVec F S64x512x768 .f32) (a1 : FVec F S64x512x1024 .f32)
    (v : IVec S64x512 32) (a3 : FVec F S1792x7 .f32) (a4 : FVec F S7 .f32)
    (h : fn (F := F) a0 a1 v a3 a4 = fun _ => 1#1) (i : S64x512.Idx) : v i = 0#32 ∨ v i = 1#32 := by
  have h0 := congrFun h ix0
  unfold fn fn_part1 at h0
  dsimp only at h0
  obtain ⟨-, h24⟩ := IntOp.andi_eq_one.1 h0
  have hi := Host.reduce_andi_all _ _ _ _ ix0 h24 i
  rcases IntOp.ori_eq_one.1 hi with h1 | h1
  · exact Or.inl (StableHlo.Predicate.cmpi_eq_iff.1 h1)
  · exact Or.inr (StableHlo.Predicate.cmpi_eq_iff.1 h1)

end Cert.Pre_finite_inputs.Decode

end
-- ==== Proof.lean ====
/-
  The certificate of the token-compaction classifier kernel against its reference, over the extended reals.

  Both programs compute, for batch row `b`, output row `s` and label `n`,

      ∑_j [slot (b, j) = s] · (∑_h x0 (b, j, h) · w (h, n))  +  ∑_h x1 (b, s, h) · w (768 + h, n)  +  bias n,

  where the slot of a token is its rank among the row's tokens marked valid (512, an overflow slot, for the others).
  The kernel selects the projected rows with a 0/1 matrix product; the reference scatters the unprojected rows into
  their slots and projects afterwards.  Under the precondition every validity word is 0 or 1, which makes the slots
  of the valid tokens of a row distinct and in range, so each output row receives at most one token: the two sums
  agree term by term (no finiteness is used).  The frames of the kernel programs are the generated ones; the
  reference's is its run with the result dropped; the idealization's ledger is empty.
-/
import proofs.«403301_j84507776516624_3_alg».proof.Defs
import proofs.«403301_j84507776516624_3_alg».proof.Proof.Gen.Kernel
import proofs.«403301_j84507776516624_3_alg».proof.Proof.Gen.Kernel.Frame
import proofs.«403301_j84507776516624_3_alg».proof.Proof.Gen.KernelIdeal
import proofs.«403301_j84507776516624_3_alg».proof.Proof.Gen.KernelIdeal.Frame
import proofs.«403301_j84507776516624_3_alg».proof.Proof.Gen.ReferenceIdeal
import proofs.«403301_j84507776516624_3_alg».proof.Proof.Gen.Pre_finite_inputs
import proofs.«403301_j84507776516624_3_alg».proof.Proof.KernelValue
import proofs.«403301_j84507776516624_3_alg».proof.Proof.RefRun
import proofs.«403301_j84507776516624_3_alg».proof.Proof.RefValue
import proofs.«403301_j84507776516624_3_alg».proof.Proof.Bridge
import proofs.«403301_j84507776516624_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The two idealized programs end with the same result array: the kernel's is the specification at its slot array,
    the reference's the specification at its own, and on 0/1 validity words the two slot arrays are one. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4⟩ := hagree c
  have hv := Cert.Pre_finite_inputs.Decode.words_01 _ _ _ _ _ (hpre c)
  rw [a0, a1, a2, a3, a4, Cert.RefValue.outT_eq _ hv, ← Cert.Bridge.kpos_eq _ hv]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
